-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S1024x2048 .f32) (main_arg5 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024 .f32) (main_arg3 : FVec F S1024x2048 .f32) (main_arg4 : FVec F S1024x2048 .f32) (main_arg5 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_v13 main_v16
-- ==== Kernel.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S512x1024 : Shape := ⟨2, ![512, 1024]⟩
abbrev S_ : Shape := ⟨0, ![]⟩
abbrev S2048x1024 : Shape := ⟨2, ![2048, 1024]⟩
abbrev S2048 : Shape := ⟨1, ![2048]⟩
abbrev S1x2048 : Shape := ⟨2, ![1, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 34
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2048, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1024x2048, .bf16⟩
  | .hbm, ⟨26, _⟩ => ⟨S2048x1024, .f32⟩
  | .hbm, ⟨27, _⟩ => ⟨S2048x1024, .bf16⟩
  | .hbm, ⟨28, _⟩ => ⟨S1024x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S1x1024, .f32⟩
  | .hbm, ⟨33, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S1x2048, .f32⟩
  | .local _ .vmem, ⟨10, _⟩ => ⟨S2048x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S1x1024_S1x1024_0_0 : ∀ a, (![0, 0] : Fin 2 → Nat) a + S1x1024.size a ≤ S1x1024.size a
  h_S1x1024 : 0 < S1x1024.numel
  inb_S512x1024_S512x1024_0_0 : ∀ a, (![0, 0] : Fin 2 → Nat) a + S512x1024.size a ≤ S512x1024.size a
  h_S512x1024 : 0 < S512x1024.numel
  shapeCasts_S1x1024_S1x1024 : S1x1024.ShapeCasts S1x1024
  reduces_S512x1024_S1024 : S512x1024.Reduces [0] S1024
  shapeCasts_S1024_S1x1024 : S1024.ShapeCasts S1x1024
  bcast_S_S1x1024 : S_.BroadcastsInDim S1x1024 (![] : Fin 0 → Fin S1x1024.rank)
  bitsLt_bf16_f32 : FTy.bits .bf16 < FTy.bits .f32
  transposes_S1024x2048_S2048x1024_1_0 : S1024x2048.Transposes [1, 0] S2048x1024
  reducesTo_S1024x2048_S2048_d0 : S1024x2048.ReducesTo [0] S2048
  h_S_ : 0 < S_.numel
  bcast_S2048_S1x2048_1 : S2048.BroadcastsInDim S1x2048 (![1] : Fin 1 → Fin S1x2048.rank)
  inb_S256x1024_S256x1024_0_0 : ∀ a, (![0, 0] : Fin 2 → Nat) a + S256x1024.size a ≤ S256x1024.size a
  h_S256x1024 : 0 < S256x1024.numel
  broadcasts_S1x1024_S256x1024 : S1x1024.Broadcasts S256x1024
  reduces_S256x1024_S256 : S256x1024.Reduces [1] S256
  shapeCasts_S256_S256x1 : S256.ShapeCasts S256x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x2048.size a
  hwx1_3 : ∀ i : grid1.Coords, EltTy.bits .bf16 = 32 ∨ (Rect.block (s := S1024x2048) S1024x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S2048x1024.size a
  hwx1_5 : ∀ i : grid1.Coords, EltTy.bits .bf16 = 32 ∨ (Rect.block (s := S2048x1024) S2048x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S4096x1024.size a
  hwx1_7 : ∀ i : grid1.Coords, EltTy.bits .f32 = 32 ∨ (Rect.block (s := S4096x1024) S256x1024.size (cc1_transform_7 i) (hinb1_7 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1024.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S2048x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S1x1024 : Shape := ⟨2, ![1, 1024]⟩
abbrev S4096 : Shape := ⟨1, ![4096]⟩
abbrev S4096x1 : Shape := ⟨2, ![4096, 1]⟩
abbrev S2048 : Shape := ⟨1, ![2048]⟩
abbrev S1x2048 : Shape := ⟨2, ![1, 2048]⟩
abbrev S4096x2048 : Shape := ⟨2, ![4096, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024x2048, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S1024x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  reducesTo_S4096x1024_S1024_d0 : S4096x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  reducesTo_S4096x1024_S4096_d1 : S4096x1024.ReducesTo [1] S4096
  bcast_S4096_S4096x1_0 : S4096.BroadcastsInDim S4096x1 (![0] : Fin 1 → Fin S4096x1.rank)
  reducesTo_S1024x2048_S2048_d0 : S1024x2048.ReducesTo [0] S2048
  bcast_S2048_S1x2048_1 : S2048.BroadcastsInDim S1x2048 (![1] : Fin 1 → Fin S1x2048.rank)
  bcast_S4096x1_S4096x2048_0_1 : S4096x1.BroadcastsInDim S4096x2048 (![0, 1] : Fin 2 → Fin S4096x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x1024_S1024x2048_S4096x2048_1_0_0_1_n_n_wf : DotDims.WF S4096x1024 S1024x2048 S4096x2048 [1] [0] [0] [1] [] []
  dot_S4096x2048_S1024x2048_S4096x1024_1_1_0_0_n_n_wf : DotDims.WF S4096x2048 S1024x2048 S4096x1024 [1] [1] [0] [0] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S1024x2048_S4096x1024_1_1_0_0_n_n : DotDims S4096x2048 S1024x2048 S4096x1024 where
  lhsContracting := [1]
  rhsContracting := [1]
  lhsNonContracting := [0]
  rhsNonContracting := [0]
  lhsBatch := []
  rhsBatch := []
  wf := dot_S4096x2048_S1024x2048_S4096x1024_1_1_0_0_n_n_wf

class Facts : Prop extends Facts₀ where

variable [Facts]
-- ==== Proof.Spec.lean ====
/-
  The mathematics both programs compute, stated once over plain coordinates.

  A batch `x` of 4096 rows and 1024 features is normalised feature by feature with the batch's own
  statistics (mean and biased variance over the 4096 rows, a small constant added under the reciprocal
  square root), scaled by `γ` and shifted by `β`.  Each normalised row is then compared with 2048 centres
  (the columns of `cen`): the squared distance is expanded as ‖row‖² + ‖centre‖² − 2·⟨row, centre⟩, the
  response is exp(−d²) of that squared distance `d`, and the result is the responses times the rows of `w`,
  plus a bias.

  The two programs differ only in how the normalisation is arranged:
    * one takes the variance as (mean of squares) − (mean)², folds `γ` and the reciprocal root into one
      scale, and the mean into one shift:  x·scale + shift;
    * the other takes the variance as the mean of squared deviations and normalises as
      (x − mean)·rsqrt(var + ε)·γ + β.
  Everything after the normalisation is one function `out` of the normalised rows.
-/
import Idealize.ShloMosaic.PureOps.Ideal
import Idealize.ShloMosaic.PureOps.Ideal.Laws

noncomputable section

namespace Cert.RbfSpec

open Idealize.ShloMosaic

/-- The batch size 4096 as both programs spell it. -/
abbrev nB : EReal := Ideal.ofBits .f32 0x45800000#32
/-- The constant added to the variance. -/
abbrev eps : EReal := Ideal.ofBits .f32 0x3727C5AC#32
/-- The factor 2 of the cross term. -/
abbrev two : EReal := Ideal.ofBits .f32 0x40000000#32

section Normalise

variable (x : Fin 4096 → Fin 1024 → EReal) (γ β : Fin 1024 → EReal)

/-- Sum of a feature over the batch. -/
def colSum (i : Fin 1024) : EReal := ∑ r : Fin 4096, x r i
/-- Sum of a feature's squares over the batch. -/
def colSumSq (i : Fin 1024) : EReal := ∑ r : Fin 4096, x r i * x r i
/-- The batch mean of feature `i`. -/
def mean (i : Fin 1024) : EReal := Ideal.div (colSum x i) nB
/-- Variance as mean of squares minus squared mean. -/
def varOfSquares (i : Fin 1024) : EReal := Ideal.div (colSumSq x i) nB - mean x i * mean x i
/-- Variance as mean of squared deviations. -/
def varOfDeviations (i : Fin 1024) : EReal :=
  Ideal.div (∑ r : Fin 4096, (x r i - mean x i) * (x r i - mean x i)) nB
/-- `γ` times the reciprocal standard deviation. -/
def scale (i : Fin 1024) : EReal := γ i * Ideal.rsqrt (varOfSquares x i + eps)
/-- `β` minus the mean's share. -/
def shift (i : Fin 1024) : EReal := β i - mean x i * scale x γ i
/-- Normalisation arranged as one multiply and one add. -/
def normFused (r : Fin 4096) (i : Fin 1024) : EReal := x r i * scale x γ i + shift x γ β i
/-- Normalisation arranged as centre, rescale, scale, shift. -/
def normPlain (r : Fin 4096) (i : Fin 1024) : EReal :=
  (x r i - mean x i) * Ideal.rsqrt (varOfDeviations x i + eps) * γ i + β i

end Normalise

section Responses

variable (xn : Fin 4096 → Fin 1024 → EReal) (cen w : Fin 1024 → Fin 2048 → EReal) (b : Fin 1024 → EReal)

/-- Squared norm of centre `c`. -/
def cenSq (c : Fin 2048) : EReal := ∑ i : Fin 1024, cen i c * cen i c
/-- Squared norm of normalised row `r`. -/
def rowSq (r : Fin 4096) : EReal := ∑ i : Fin 1024, xn r i * xn r i
/-- Inner product of row `r` with centre `c`. -/
def cross (r : Fin 4096) (c : Fin 2048) : EReal := ∑ i : Fin 1024, xn r i * cen i c
/-- The expanded squared distance. -/
def dist (r : Fin 4096) (c : Fin 2048) : EReal := (rowSq xn r + cenSq cen c) - two * cross xn cen r c
/-- The response exp(−d²). -/
def resp (r : Fin 4096) (c : Fin 2048) : EReal := Ideal.exp (-(dist xn cen r c * dist xn cen r c))
/-- The output: responses against the rows of `w`, plus the bias. -/
def out (r : Fin 4096) (o : Fin 1024) : EReal := (∑ c : Fin 2048, resp xn cen r c * w o c) + b o

end Responses

section Row

variable (xr : Fin 1024 → EReal) (cen w : Fin 1024 → Fin 2048 → EReal) (csq : Fin 2048 → EReal) (b : Fin 1024 → EReal)

/-- One row's expanded squared distance to centre `c`, from the row's features, the centres and the centres'
    squared norms handed in as a table. -/
def rowDist (c : Fin 2048) : EReal := ((∑ i : Fin 1024, xr i * xr i) + csq c) - two * ∑ i : Fin 1024, xr i * cen i c
/-- One row's outputs. -/
def rowOut (o : Fin 1024) : EReal :=
  (∑ c : Fin 2048, Ideal.exp (-(rowDist xr cen csq c * rowDist xr cen csq c)) * w o c) + b o

end Row

/-- The output is computed row by row. -/
theorem out_eq_rowOut (xn : Fin 4096 → Fin 1024 → EReal) (cen w : Fin 1024 → Fin 2048 → EReal) (b : Fin 1024 → EReal)
    (r : Fin 4096) (o : Fin 1024) : out xn cen w b r o = rowOut (xn r) cen w (cenSq cen) b o := rfl

end Cert.RbfSpec

end
-- ==== Proof.Args.lean ====
/-
  The six argument arrays of the launch memory, read coordinate by coordinate: the batch `x`, the scale `γ`,
  the shift `β`, the centres (one per column), the output weights (one row per output) and the bias.
-/
import proofs.«163010_j58385785421876_1_alg».proof.Proof.Gen.KernelIdeal
import proofs.«163010_j58385785421876_1_alg».proof.Proof.Spec
import Idealize.ShloMosaic.Lib.ValueIdx

noncomputable section

namespace Cert.KernelIdeal.RbfValue

open Cert.KernelIdeal Idealize.ShloMosaic Idealize.ShloMosaic.ValueIdx Idealize.SL.Sem

variable (m : (ℓ : Loc nD τ sig) → Buf (Elt Ideal) ℓ) (c : Dev nD)

/-- Row `r`, feature `i` of the batch. -/
abbrev X (r : Fin 4096) (i : Fin 1024) : EReal := m ((c.tc : Thread nD τ).loc main_arg0) (ix2 r i)
/-- The per-feature scale `γ`. -/
abbrev Γ (i : Fin 1024) : EReal := m ((c.tc : Thread nD τ).loc main_arg1) (ix1 i)
/-- The per-feature shift `β`. -/
abbrev Β (i : Fin 1024) : EReal := m ((c.tc : Thread nD τ).loc main_arg2) (ix1 i)
/-- Feature `i` of centre `k`. -/
abbrev Cen (i : Fin 1024) (k : Fin 2048) : EReal := m ((c.tc : Thread nD τ).loc main_arg3) (ix2 i k)
/-- Weight of response `k` in output `o`. -/
abbrev Wt (o : Fin 1024) (k : Fin 2048) : EReal := m ((c.tc : Thread nD τ).loc main_arg4) (ix2 o k)
/-- The bias of output `o`. -/
abbrev Bias (o : Fin 1024) : EReal := m ((c.tc : Thread nD τ).loc main_arg5) (ix1 o)

end Cert.KernelIdeal.RbfValue

end
-- ==== Proof.Stats.lean ====
/-
  The first kernel region: eight row blocks of 512 rows are summed, and their squares summed, into two
  one-row accumulators that are cleared at the first block and written back after the last.  So each
  accumulator's array ends holding, feature by feature, the sum over all 4096 rows.
-/
import proofs.«163010_j58385785421876_1_alg».proof.Proof.Gen.KernelIdeal.Frame
import proofs.«163010_j58385785421876_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RbfValue

open Cert.KernelIdeal Cert.KernelIdeal.Gen
open Idealize.ShloMosaic Idealize.ShloMosaic.TcCoe Idealize.ShloMosaic.ValueIdx Idealize.SL.Sem
open Idealize.ShloMosaic.Pipeline (Dat)

namespace Stats

/-- The two zero offsets of a whole-block access, as the constant function. -/
theorem hz : (![0, 0] : Fin 2 → Nat) = fun _ => 0 := funext fun a => by fin_cases a <;> rfl

section Pieces

variable {F : FTy → Type} [FloatOps F]

/-- At a later block the first accumulator is left at its previous row plus the block's column sums. -/
theorem outB1 (c : Dev nD) (i : grid0.Coords) (a1 : Memref sig .tc .vmem S512x1024 .f32) (h1 : a1.IsWhole)
    (a2 : Memref sig .tc .vmem S1x1024 .f32) (h2 : a2.IsWhole) (a3 : Memref sig .tc .vmem S1x1024 .f32) (h3 : a3.IsWhole)
    (hc : ¬cond0_0 i) (x : Vec F S512x1024 .f32) (xo1 xo2 : Vec F S1x1024 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S512x1024) hz,
    View.ld_unit_zero (S := S1x1024) hz]

/-- At a later block the second accumulator is left at its previous row plus the column sums of the block's squares. -/
theorem outB2 (c : Dev nD) (i : grid0.Coords) (a1 : Memref sig .tc .vmem S512x1024 .f32) (h1 : a1.IsWhole)
    (a2 : Memref sig .tc .vmem S1x1024 .f32) (h2 : a2.IsWhole) (a3 : Memref sig .tc .vmem S1x1024 .f32) (h3 : a3.IsWhole)
    (hc : ¬cond0_0 i) (x : Vec F S512x1024 .f32) (xo1 xo2 : Vec F S1x1024 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S512x1024) hz,
    View.ld_unit_zero (S := S1x1024) hz]

/-- At the first block the first accumulator is cleared and then left at the zero row plus the block's column sums. -/
theorem outA1 (c : Dev nD) (i : grid0.Coords) (a1 : Memref sig .tc .vmem S512x1024 .f32) (h1 : a1.IsWhole)
    (a2 : Memref sig .tc .vmem S1x1024 .f32) (h2 : a2.IsWhole) (a3 : Memref sig .tc .vmem S1x1024 .f32) (h3 : a3.IsWhole)
    (hc : cond0_0 i) (x : Vec F S512x1024 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x1024) hz, View.readCov_unit_zero (S := S1x1024) _ hz]
  simp only [View.readAt_eq_ld, h1.read_unread, View.ld_unit_zero (S := S512x1024) hz]

/-- At the first block the second accumulator is cleared and then left at the zero row plus the column sums of the
    block's squares. -/
theorem outA2 (c : Dev nD) (i : grid0.Coords) (a1 : Memref sig .tc .vmem S512x1024 .f32) (h1 : a1.IsWhole)
    (a2 : Memref sig .tc .vmem S1x1024 .f32) (h2 : a2.IsWhole) (a3 : Memref sig .tc .vmem S1x1024 .f32) (h3 : a3.IsWhole)
    (hc : cond0_0 i) (x : Vec F S512x1024 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x1024) hz, View.readCov_unit_zero (S := S1x1024) _ hz]
  simp only [View.readAt_eq_ld, h1.read_unread, View.ld_unit_zero (S := S512x1024) hz]

end Pieces

section Payloads

/-- The sum down the 512 rows of a block, read at feature `i`. -/
theorem laneSum_apply (x : FVec Ideal S512x1024 .f32) (h : S512x1024.Reduces [0] S1024) (hφ : FKind.Formats .f32)
    (hacc : (0x00000000#32 : BitVec 32) = 0x00000000#32) (i : Fin 1024) :
    multiReduction .add [0] S1024 x 0x00000000#32 h hφ hacc (ix1 i) = ∑ r : Fin 512, x (ix2 r i) := by
  refine (Ideal.multiReduction_add_single x 0x00000000#32 h hφ hacc (ix1 i)).trans ?_
  refine Finset.sum_congr rfl fun r _ => congrArg x ?_
  funext a
  match a with
  | ⟨0, _⟩ => exact Fin.ext rfl
  | ⟨1, _⟩ => exact Fin.ext rfl

/-- The first accumulator's update at feature `i`: the previous entry plus the block's column sum. -/
theorem pay3_apply (x : FVec Ideal S512x1024 .f32) (a : FVec Ideal S1x1024 .f32) (i : Fin 1024) :
    k0_pay3 x a (ix2 (0 : Fin 1) i) = a (ix2 (0 : Fin 1) i) + ∑ r : Fin 512, x (ix2 r i) := by
  unfold k0_pay3
  dsimp only
  refine (addf_apply _ _ _).trans ?_
  exact congrArg₂ (· + ·) (congrFun (shapeCast_self a _) _)
    ((shapeCast_a_1a_apply _ _ (0 : Fin 1) i).trans (laneSum_apply x _ _ _ i))

/-- The second accumulator's update at feature `i`: the previous entry plus the column sum of the block's squares. -/
theorem pay4_apply (x : FVec Ideal S512x1024 .f32) (a : FVec Ideal S1x1024 .f32) (i : Fin 1024) :
    k0_pay4 x a (ix2 (0 : Fin 1) i) = a (ix2 (0 : Fin 1) i) + ∑ r : Fin 512, x (ix2 r i) * x (ix2 r i) := by
  unfold k0_pay4
  dsimp only
  refine (addf_apply _ _ _).trans ?_
  exact congrArg₂ (· + ·) (congrFun (shapeCast_self a _) _)
    ((shapeCast_a_1a_apply _ _ (0 : Fin 1) i).trans ((laneSum_apply (mulf x x) _ _ _ i).trans
      (Finset.sum_congr rfl fun r _ => mulf_apply x x (ix2 r i))))

/-- The cleared rows hold the extended real zero. -/
theorem pay1_apply (j : S1x1024.Idx) : k0_pay1 (F := Ideal) j = 0 := by
  unfold k0_pay1
  exact Ideal.ofBits_zero_f32

theorem pay2_apply (j : S1x1024.Idx) : k0_pay2 (F := Ideal) j = 0 := by
  unfold k0_pay2
  exact Ideal.ofBits_zero_f32

end Payloads

variable (V : (c : Dev nD) → (b : Ref sig .tc) → Buf (Elt Ideal) ((c : Thread nD τ).loc b))

/-- The 512-row block of the operand array staged at a point, as a plain array of extended reals. -/
abbrev xblk (c : Dev nD) (t : Fin cfg0.N) : FVec Ideal S512x1024 .f32 := iblk0 V c 0 t

/-- Row `r` of the block staged at point `t` is row `512·t + r` of the operand array. -/
theorem xblk_apply (c : Dev nD) (t : Fin cfg0.N) (r : Fin 512) (i : Fin 1024) (hlt : 512 * t.val + r.val < 4096) :
    xblk V c t (ix2 r i) = V c main_arg0 (ix2 ⟨512 * t.val + r.val, hlt⟩ i) := by
  have hi : ∀ t : Fin cfg0.N, win0_0.index t 0 = t.val ∧ win0_0.index t 1 = 0 :=
    (by decide +kernel : ∀ t : Fin grid0.N, win0_0.index t 0 = t.val ∧ win0_0.index t 1 = 0)
  unfold xblk iblk0
  rw [View.read_apply]
  show V c main_arg0 _ = V c main_arg0 _
  refine congrArg (V c main_arg0) ?_
  funext a
  apply Fin.ext
  match a with
  | ⟨0, _⟩ => show win0_0.index t 0 * 512 + 1 * r.val = 512 * t.val + r.val; rw [(hi t).1]; omega
  | ⟨1, _⟩ => show win0_0.index t 1 * 1024 + 1 * i.val = i.val; rw [(hi t).2]; omega

/-- Feature `i` of the batch as a sequence of rows, continued by zero past the last row. -/
def rowSeq (xv : Fin 4096 → Fin 1024 → EReal) (i : Fin 1024) (k : ℕ) : EReal :=
  if h : k < 4096 then xv ⟨k, h⟩ i else 0

/-- Summing any function `g` of feature `i` down the block staged at point `t` sums it over rows
    `512·t … 512·t + 511` of the batch. -/
theorem xblk_sum_of (c : Dev nD) (xv : Fin 4096 → Fin 1024 → EReal) (hx : ∀ r i, V c main_arg0 (ix2 r i) = xv r i)
    (t : Fin cfg0.N) (i : Fin 1024) (g : EReal → EReal) :
    ∑ r : Fin 512, g (xblk V c t (ix2 r i)) = ∑ r ∈ Finset.range 512, g (rowSeq xv i (512 * t.val + r)) := by
  have hN : t.val < 8 := lt_of_lt_of_eq t.isLt (show cfg0.N = 8 from N_0)
  refine Eq.trans ?_ (Fin.sum_univ_eq_sum_range (fun r => g (rowSeq xv i (512 * t.val + r))) 512)
  refine Finset.sum_congr rfl fun r _ => congrArg g ?_
  have hlt : 512 * t.val + r.val < 4096 := by have := r.isLt; omega
  rw [xblk_apply V c t r i hlt, hx]
  unfold rowSeq
  rw [dif_pos hlt]

/-- The block's column sum is the sum of the batch's rows `512·t … 512·t + 511`. -/
theorem xblk_sum (c : Dev nD) (xv : Fin 4096 → Fin 1024 → EReal) (hx : ∀ r i, V c main_arg0 (ix2 r i) = xv r i)
    (t : Fin cfg0.N) (i : Fin 1024) :
    ∑ r : Fin 512, xblk V c t (ix2 r i) = ∑ r ∈ Finset.range 512, rowSeq xv i (512 * t.val + r) :=
  xblk_sum_of V c xv hx t i (fun y => y)

/-- The column sum of the block's squares is the sum of the squares of the same rows. -/
theorem xblk_sumsq (c : Dev nD) (xv : Fin 4096 → Fin 1024 → EReal) (hx : ∀ r i, V c main_arg0 (ix2 r i) = xv r i)
    (t : Fin cfg0.N) (i : Fin 1024) :
    ∑ r : Fin 512, xblk V c t (ix2 r i) * xblk V c t (ix2 r i)
      = ∑ r ∈ Finset.range 512, rowSeq xv i (512 * t.val + r) * rowSeq xv i (512 * t.val + r) :=
  xblk_sum_of V c xv hx t i (fun y => y * y)

/-- The running first accumulator after point `n`: feature `i` summed over the first `512·(n+1)` rows. -/
theorem acc1_eq (c : Dev nD) (xv : Fin 4096 → Fin 1024 → EReal) (hx : ∀ r i, V c main_arg0 (ix2 r i) = xv r i)
    (i : Fin 1024) : ∀ (n : ℕ) (h : n < cfg0.N),
      (outsAt0 V c n h).1 (ix2 (0 : Fin 1) i) = ∑ k ∈ Finset.range (512 * (n + 1)), rowSeq xv i k
  | 0, h => by
    rw [outsAt0_A V c ⟨0, h⟩ rfl]
    dsimp only
    refine (congrFun (outA1 (F := Ideal) c (grid0.coords ⟨0, h⟩) (ms0_0 ⟨0, h⟩) (hs0_0 ⟨0, h⟩) (ms0_1 ⟨0, h⟩)
      (hs0_1 ⟨0, h⟩) (ms0_2 ⟨0, h⟩) (hs0_2 ⟨0, h⟩) ((hcond0_0 ⟨0, h⟩).mpr rfl) (xblk V c ⟨0, h⟩)) (ix2 (0 : Fin 1) i)).trans ?_
    rw [pay3_apply, pay1_apply, zero_add, xblk_sum V c xv hx]
    show ∑ r ∈ Finset.range 512, rowSeq xv i (512 * 0 + r) = ∑ k ∈ Finset.range 512, rowSeq xv i k
    simp only [Nat.mul_zero, Nat.zero_add]
  | n + 1, h => by
    have hN : cfg0.N = 8 := N_0
    have hB : ¬(⟨n + 1, h⟩ : Fin cfg0.N).val % 8 = 0 := by dsimp only; omega
    rw [outsAt0_B V c ⟨n + 1, h⟩ hB]
    dsimp only
    refine (congrFun (outB1 (F := Ideal) c (grid0.coords ⟨n + 1, h⟩) (ms0_0 ⟨n + 1, h⟩) (hs0_0 ⟨n + 1, h⟩)
      (ms0_1 ⟨n + 1, h⟩) (hs0_1 ⟨n + 1, h⟩) (ms0_2 ⟨n + 1, h⟩) (hs0_2 ⟨n + 1, h⟩)
      (fun h' => hB ((hcond0_0 ⟨n + 1, h⟩).mp h')) (xblk V c ⟨n + 1, h⟩)
      (outsAt0 V c n (Nat.lt_of_succ_lt h)).1 (outsAt0 V c n (Nat.lt_of_succ_lt h)).2) (ix2 (0 : Fin 1) i)).trans ?_
    rw [pay3_apply, acc1_eq c xv hx i n (Nat.lt_of_succ_lt h), xblk_sum V c xv hx]
    show _ + ∑ r ∈ Finset.range 512, rowSeq xv i (512 * (n + 1) + r) = _
    rw [← Finset.sum_range_add, show 512 * (n + 1) + 512 = 512 * (n + 1 + 1) by omega]

/-- The running second accumulator after point `n`: the squares of feature `i` summed over the first `512·(n+1)` rows. -/
theorem acc2_eq (c : Dev nD) (xv : Fin 4096 → Fin 1024 → EReal) (hx : ∀ r i, V c main_arg0 (ix2 r i) = xv r i)
    (i : Fin 1024) : ∀ (n : ℕ) (h : n < cfg0.N),
      (outsAt0 V c n h).2 (ix2 (0 : Fin 1) i) = ∑ k ∈ Finset.range (512 * (n + 1)), rowSeq xv i k * rowSeq xv i k
  | 0, h => by
    rw [outsAt0_A V c ⟨0, h⟩ rfl]
    dsimp only
    refine (congrFun (outA2 (F := Ideal) c (grid0.coords ⟨0, h⟩) (ms0_0 ⟨0, h⟩) (hs0_0 ⟨0, h⟩) (ms0_1 ⟨0, h⟩)
      (hs0_1 ⟨0, h⟩) (ms0_2 ⟨0, h⟩) (hs0_2 ⟨0, h⟩) ((hcond0_0 ⟨0, h⟩).mpr rfl) (xblk V c ⟨0, h⟩)) (ix2 (0 : Fin 1) i)).trans ?_
    rw [pay4_apply, pay2_apply, zero_add, xblk_sumsq V c xv hx]
    show ∑ r ∈ Finset.range 512, rowSeq xv i (512 * 0 + r) * rowSeq xv i (512 * 0 + r)
      = ∑ k ∈ Finset.range 512, rowSeq xv i k * rowSeq xv i k
    simp only [Nat.mul_zero, Nat.zero_add]
  | n + 1, h => by
    have hN : cfg0.N = 8 := N_0
    have hB : ¬(⟨n + 1, h⟩ : Fin cfg0.N).val % 8 = 0 := by dsimp only; omega
    rw [outsAt0_B V c ⟨n + 1, h⟩ hB]
    dsimp only
    refine (congrFun (outB2 (F := Ideal) c (grid0.coords ⟨n + 1, h⟩) (ms0_0 ⟨n + 1, h⟩) (hs0_0 ⟨n + 1, h⟩)
      (ms0_1 ⟨n + 1, h⟩) (hs0_1 ⟨n + 1, h⟩) (ms0_2 ⟨n + 1, h⟩) (hs0_2 ⟨n + 1, h⟩)
      (fun h' => hB ((hcond0_0 ⟨n + 1, h⟩).mp h')) (xblk V c ⟨n + 1, h⟩)
      (outsAt0 V c n (Nat.lt_of_succ_lt h)).1 (outsAt0 V c n (Nat.lt_of_succ_lt h)).2) (ix2 (0 : Fin 1) i)).trans ?_
    rw [pay4_apply, acc2_eq c xv hx i n (Nat.lt_of_succ_lt h), xblk_sumsq V c xv hx]
    show _ + ∑ r ∈ Finset.range 512, rowSeq xv i (512 * (n + 1) + r) * rowSeq xv i (512 * (n + 1) + r) = _
    rw [← Finset.sum_range_add (fun k => rowSeq xv i k * rowSeq xv i k),
      show 512 * (n + 1) + 512 = 512 * (n + 1 + 1) by omega]

/-- The last of the eight points. -/
theorem last_lt : 7 < cfg0.N := by rw [show cfg0.N = 8 from N_0]; decide

/-- What the first accumulator's block holds after the last point, as contents of its array: the one block is the
    whole `[1,1024]` array. -/
abbrev last1 (c : Dev nD) : Buf (Elt Ideal) ((c : Thread nD τ).loc main_v0_0) := (outsAt0 V c 7 last_lt).1
/-- The same for the second accumulator. -/
abbrev last2 (c : Dev nD) : Buf (Elt Ideal) ((c : Thread nD τ).loc main_v0_1) := (outsAt0 V c 7 last_lt).2

/-- The one write-back of the first accumulator, after the last point, writes that block: block (0, 0) of the array,
    read through zero offsets, is the array. -/
theorem flushed1_eq (c : Dev nD) (t : Fin cfg0.N) (hf : (cfg0.win 1).flush t = true) :
    (dat0 V c).flushed 1 t = ((cfg0.win 1).blk t).view.read (Elt Ideal) (last1 V c) := by
  have hN : cfg0.N = 8 := N_0
  have h7 : t.val = 7 := by have := (flush0_1 t).mp hf; have := t.isLt; omega
  obtain rfl : t = t0_7 := Fin.ext h7
  show (cfg0.win 1).cut (grid0.coords t0_7) ((dat0 V c).after 1 t0_7) = _
  rw [after0_1]
  have hz' : (fun a => win0_1.index t0_7 a * main_v0_0.ty.shape.size a) = fun _ => 0 :=
    funext fun a => by fin_cases a <;> decide
  exact (Memref.read_access_unit_zero (Elt Ideal) main_v0_0 hz' (fun a => by rw [congrFun hz' a]; simp) (last1 V c)).symm

/-- The one write-back of the second accumulator likewise. -/
theorem flushed2_eq (c : Dev nD) (t : Fin cfg0.N) (hf : (cfg0.win 2).flush t = true) :
    (dat0 V c).flushed 2 t = ((cfg0.win 2).blk t).view.read (Elt Ideal) (last2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  have hz' : (fun a => win0_2.index t0_7 a * main_v0_1.ty.shape.size a) = fun _ => 0 :=
    funext fun a => by fin_cases a <;> decide
  exact (Memref.read_access_unit_zero (Elt Ideal) main_v0_1 hz' (fun a => by rw [congrFun hz' a]; simp) (last2 V c)).symm

/-- So the first accumulator's array ends holding what the last point left: that point's block covers it. -/
theorem final1 (c : Dev nD) : (dat0 V c).arrAt 1 cfg0.N = last1 V c :=
  (dat0 V c).arrAt_eq_of_cover 1 (last1 V c) (flushed1_eq V c) fun i =>
    ⟨t0_7, (flush0_1 t0_7).mpr rfl, by
      show i ∈ ((View.whole main_v0_0).slice (win0_1.rect t0_7)).set
      rw [View.set_slice_whole, Rect.mem_set_unit]
      intro a
      have h0 : (i 0 : Nat) < 1 := (i 0).isLt
      have h1 : (i 1 : Nat) < 1024 := (i 1).isLt
      match a with
      | ⟨0, _⟩ =>
        show win0_1.index t0_7 0 * win0_1.size 0 ≤ (i 0 : Nat)
          ∧ (i 0 : Nat) < win0_1.index t0_7 0 * win0_1.size 0 + win0_1.xsize (grid0.coords t0_7) 0
        rw [show win0_1.index t0_7 0 * win0_1.size 0 = 0 from by decide +kernel,
          show win0_1.xsize (grid0.coords t0_7) 0 = 1 from by decide +kernel]; omega
      | ⟨1, _⟩ =>
        show win0_1.index t0_7 1 * win0_1.size 1 ≤ (i 1 : Nat)
          ∧ (i 1 : Nat) < win0_1.index t0_7 1 * win0_1.size 1 + win0_1.xsize (grid0.coords t0_7) 1
        rw [show win0_1.index t0_7 1 * win0_1.size 1 = 0 from by decide +kernel,
          show win0_1.xsize (grid0.coords t0_7) 1 = 1024 from by decide +kernel]; omega⟩

/-- And the second accumulator's array likewise. -/
theorem final2 (c : Dev nD) : (dat0 V c).arrAt 2 cfg0.N = last2 V c :=
  (dat0 V c).arrAt_eq_of_cover 2 (last2 V c) (flushed2_eq V c) fun i =>
    ⟨t0_7, (flush0_2 t0_7).mpr rfl, by
      show i ∈ ((View.whole main_v0_1).slice (win0_2.rect t0_7)).set
      rw [View.set_slice_whole, Rect.mem_set_unit]
      intro a
      have h0 : (i 0 : Nat) < 1 := (i 0).isLt
      have h1 : (i 1 : Nat) < 1024 := (i 1).isLt
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 1 from by decide +kernel]; omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 1024 from by decide +kernel]; omega⟩

/-- Summing the row sequence over all 4096 rows is summing the batch. -/
theorem sum_rowSeq (xv : Fin 4096 → Fin 1024 → EReal) (i : Fin 1024) (g : EReal → EReal) :
    ∑ k ∈ Finset.range 4096, g (rowSeq xv i k) = ∑ r : Fin 4096, g (xv r i) := by
  refine (Fin.sum_univ_eq_sum_range (fun k => g (rowSeq xv i k)) 4096).symm.trans ?_
  refine Finset.sum_congr rfl fun r _ => congrArg g ?_
  unfold rowSeq
  rw [dif_pos r.isLt]

end Stats

open Stats

variable (V : (c : Dev nD) → (b : Ref sig .tc) → Buf (Elt Ideal) ((c : Thread nD τ).loc b))

/-- Whatever batch `xv` the region finds in its operand array, the first accumulator's array ends holding each
    feature's sum over the batch. -/
theorem stats_sum (c : Dev nD) (xv : Fin 4096 → Fin 1024 → EReal) (hx : ∀ r i, V c main_arg0 (ix2 r i) = xv r i)
    (i : Fin 1024) :
    (dat0 V c).arrAt 1 cfg0.N (ix2 (0 : Fin 1) i) = RbfSpec.colSum xv i := by
  rw [final1 V c]
  show (outsAt0 V c 7 last_lt).1 (ix2 (0 : Fin 1) i) = _
  rw [acc1_eq V c xv hx i 7 last_lt]
  exact sum_rowSeq xv i (fun y => y)

/-- And the second accumulator's array each feature's sum of squares over the batch. -/
theorem stats_sumsq (c : Dev nD) (xv : Fin 4096 → Fin 1024 → EReal) (hx : ∀ r i, V c main_arg0 (ix2 r i) = xv r i)
    (i : Fin 1024) :
    (dat0 V c).arrAt 2 cfg0.N (ix2 (0 : Fin 1) i) = RbfSpec.colSumSq xv i := by
  rw [final2 V c]
  show (outsAt0 V c 7 last_lt).2 (ix2 (0 : Fin 1) i) = _
  rw [acc2_eq V c xv hx i 7 last_lt]
  exact sum_rowSeq xv i (fun y => y * y)

end Cert.KernelIdeal.RbfValue

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.MainPayload.lean ====
/-
  The second kernel's body on one block of 256 rows, read at a coordinate.  From the block `x0`, a scale row `x1`, a
  shift row `x5`, the centres `x13`, their squared norms `x16`, the transposed weights `x29` and the bias row `x32`,
  the value stored at row `p`, output `q` of the block is one row's output of the features
  `x0[p, ·] · x1 + x5`: the row's squared norm is a lane sum, the two products are sums over the contracted
  axis, a change of float format is the identity, and `0 − y` is `−y`.
-/
import proofs.«163010_j58385785421876_1_alg».proof.Proof.Gen.KernelIdeal.Skeleton
import proofs.«163010_j58385785421876_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«163010_j58385785421876_1_alg».proof.Proof.LibColumn

noncomputable section

namespace Cert.KernelIdeal.RbfValue

open Cert.KernelIdeal Cert.KernelIdeal.Gen
open Idealize.ShloMosaic Idealize.ShloMosaic.ValueIdx Idealize.SL.Sem

/-- The lane sum of a `[256, 1024]` block at row `p`: the sum over the lane coordinate. -/
theorem laneSum_apply (v : FVec Ideal S256x1024 .f32) (h : S256x1024.Reduces [1] S256) (hφ : FKind.Formats .f32)
    (hacc : (0x00000000#32 : BitVec 32) = 0x00000000#32) (p : Fin 256) :
    multiReduction (F := Ideal) .add [1] S256 v 0x00000000#32 h hφ hacc (ix1 p) = ∑ i : Fin 1024, v (ix2 p i) := by
  refine (Ideal.multiReduction_add_single v 0x00000000#32 h hφ hacc (ix1 p)).trans ?_
  show ∑ i : Fin 1024, v (h.lift (ix1 p) i) = _
  refine Finset.sum_congr rfl fun i _ => congrArg v (funext fun a => Fin.ext ?_)
  match a with
  | ⟨0, _⟩ => rfl
  | ⟨1, _⟩ => rfl

/-! The two block products.  Each contracts the left operand's second axis with the right operand's first, so at
    `(p, c)` the operands are read at `(p, k)` and `(k, c)`. -/

theorem lhs_cross_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_cross_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_cross_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_cross_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The first block product into a zero accumulator, at `(p, c)`: the inner product of row `p` with column `c`. -/
theorem cross_apply (l : FVec Ideal S256x1024 .bf16) (r : FVec Ideal S1024x2048 .bf16) (p : Fin 256) (c : Fin 2048) :
    matmul (F := Ideal) dot_S256x1024_S1024x2048_S256x2048_1_0_0_1_n_n none l r (constant (F := Ideal) S256x2048 .f32 0x00000000#32) (ix2 p c)
      = ∑ k : Fin 1024, l (ix2 p k) * r (ix2 k c) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p c) ((contrEquiv1 dot_S256x1024_S1024x2048_S256x2048_1_0_0_1_n_n 1024 rfl rfl).symm k) = ix2 p k := funext fun a => Fin.ext (by
    match a with
    | ⟨0, _⟩ => exact lhs_cross_0 _ _
    | ⟨1, _⟩ => exact (lhs_cross_1 _ _).trans hk)
  have er : dot_S256x1024_S1024x2048_S256x2048_1_0_0_1_n_n.rhsIdx (ix2 p c) ((contrEquiv1 dot_S256x1024_S1024x2048_S256x2048_1_0_0_1_n_n 1024 rfl rfl).symm k) = ix2 k c := funext fun a => Fin.ext (by
    match a with
    | ⟨0, _⟩ => exact (rhs_cross_0 _ _).trans hk
    | ⟨1, _⟩ => exact rhs_cross_1 _ _)
  rw [el, er]

theorem lhs_mix_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_mix_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_mix_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_mix_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The second block product into a zero accumulator, at `(p, c)`: the inner product of row `p` with column `c`. -/
theorem mix_apply (l : FVec Ideal S256x2048 .bf16) (r : FVec Ideal S2048x1024 .bf16) (p : Fin 256) (c : Fin 1024) :
    matmul (F := Ideal) dot_S256x2048_S2048x1024_S256x1024_1_0_0_1_n_n none l r (constant (F := Ideal) S256x1024 .f32 0x00000000#32) (ix2 p c)
      = ∑ k : Fin 2048, l (ix2 p k) * r (ix2 k c) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p c) ((contrEquiv1 dot_S256x2048_S2048x1024_S256x1024_1_0_0_1_n_n 2048 rfl rfl).symm k) = ix2 p k := funext fun a => Fin.ext (by
    match a with
    | ⟨0, _⟩ => exact lhs_mix_0 _ _
    | ⟨1, _⟩ => exact (lhs_mix_1 _ _).trans hk)
  have er : dot_S256x2048_S2048x1024_S256x1024_1_0_0_1_n_n.rhsIdx (ix2 p c) ((contrEquiv1 dot_S256x2048_S2048x1024_S256x1024_1_0_0_1_n_n 2048 rfl rfl).symm k) = ix2 k c := funext fun a => Fin.ext (by
    match a with
    | ⟨0, _⟩ => exact (rhs_mix_0 _ _).trans hk
    | ⟨1, _⟩ => exact rhs_mix_1 _ _)
  rw [el, er]

/-- The block's features scaled and shifted by the two rows, at `(p, i)`: a cast of a shape to itself changes nothing and
    a one-row array broadcast down the rows is read at its one row. -/
theorem affine_apply (x0 : FVec Ideal S256x1024 .f32) (x1 x5 : FVec Ideal S1x1024 .f32)
    (hc : S1x1024.ShapeCasts S1x1024) (hb : S1x1024.Broadcasts S256x1024) (p : Fin 256) (i : Fin 1024) :
    addf (mulf x0 (broadcastTo S256x1024 (shapeCast S1x1024 x1 hc) hb)) (broadcastTo S256x1024 (shapeCast S1x1024 x5 hc) hb) (ix2 p i)
      = x0 (ix2 p i) * x1 (ix2 (0 : Fin 1) i) + x5 (ix2 (0 : Fin 1) i) := by
  rw [addf_apply, mulf_apply, shapeCast_self, shapeCast_self, broadcastTo_1b_ab_apply, broadcastTo_1b_ab_apply]

/-- The expanded squared distance of row `p` of a block `xn` to centre `c`: the row's squared norm (a lane sum, laid as
    a column and spread along the centres) plus the centre's tabulated squared norm (a row spread down the rows), minus
    twice the inner product (the first block product; the change of float format is the identity). -/
theorem dist_apply (xn : FVec Ideal S256x1024 .f32) (x13 : FVec Ideal S1024x2048 .bf16) (x16 : FVec Ideal S1x2048 .f32)
    (hr : S256x1024.Reduces [1] S256) (hφ : FKind.Formats .f32) (hacc : (0x00000000#32 : BitVec 32) = 0x00000000#32)
    (hc1 : S256.ShapeCasts S256x1) (hb1 : S256x1.Broadcasts S256x2048) (hc2 : S1x2048.ShapeCasts S1x2048)
    (hb2 : S1x2048.Broadcasts S256x2048) (hlt : FTy.bits .bf16 < FTy.bits .f32) (hc3 : S1024x2048.ShapeCasts S1024x2048)
    (p : Fin 256) (c : Fin 2048) :
    subf (addf (broadcastTo S256x2048 (shapeCast S256x1 (multiReduction (F := Ideal) .add [1] S256 (mulf xn xn) 0x00000000#32 hr hφ hacc) hc1) hb1)
               (broadcastTo S256x2048 (shapeCast S1x2048 x16 hc2) hb2))
         (mulf (broadcast S256x2048 (FloatOps.ofBits (F := Ideal) .f32 0x40000000#32))
               (matmul (F := Ideal) dot_S256x1024_S1024x2048_S256x2048_1_0_0_1_n_n none (truncf .bf16 xn hlt) (shapeCast S1024x2048 x13 hc3)
                 (constant (F := Ideal) S256x2048 .f32 0x00000000#32))) (ix2 p c)
      = RbfSpec.rowDist (fun i => xn (ix2 p i)) (fun i k => x13 (ix2 i k)) (fun k => x16 (ix2 (0 : Fin 1) k)) c := by
  rw [subf_apply, addf_apply, mulf_apply, broadcast_apply, Cert.LibColumn.broadcastTo_a1_ab_apply,
    Cert.LibColumn.shapeCast_a_a1_apply, laneSum_apply, shapeCast_self, broadcastTo_1b_ab_apply, shapeCast_self, cross_apply]
  rfl

/-- One row's outputs from a block `d` of distances: `0 − d²` is `−d²`, the response is its exponential (the change of
    float format is again the identity), the second block product sums the responses against the weights, and the bias
    row is spread down the rows. -/
theorem mixed_apply (d : FVec Ideal S256x2048 .f32) (x29 : FVec Ideal S2048x1024 .bf16) (x32 : FVec Ideal S1x1024 .f32)
    (hlt : FTy.bits .bf16 < FTy.bits .f32) (hc1 : S2048x1024.ShapeCasts S2048x1024) (hc2 : S1x1024.ShapeCasts S1x1024)
    (hb : S1x1024.Broadcasts S256x1024) (p : Fin 256) (q : Fin 1024) :
    addf (matmul (F := Ideal) dot_S256x2048_S2048x1024_S256x1024_1_0_0_1_n_n none
            (truncf .bf16 (exp (subf (broadcast S256x2048 (FloatOps.ofBits (F := Ideal) .f32 0x00000000#32)) (mulf d d))) hlt)
            (shapeCast S2048x1024 x29 hc1) (constant (F := Ideal) S256x1024 .f32 0x00000000#32))
         (broadcastTo S256x1024 (shapeCast S1x1024 x32 hc2) hb) (ix2 p q)
      = (∑ c : Fin 2048, Ideal.exp (-(d (ix2 p c) * d (ix2 p c))) * x29 (ix2 c q)) + x32 (ix2 (0 : Fin 1) q) := by
  rw [addf_apply, shapeCast_self, shapeCast_self, broadcastTo_1b_ab_apply, mix_apply]
  refine congrArg (· + _) (Finset.sum_congr rfl fun c _ => congrArg (· * _) ?_)
  show Ideal.exp (Ideal.ofBits .f32 0x00000000#32 - d (ix2 p c) * d (ix2 p c)) = _
  rw [Ideal.ofBits_zero_f32, zero_sub]

/-- The stored value at `(p, q)`. -/
theorem pay1_apply (x0 : FVec Ideal S256x1024 .f32) (x1 x5 : FVec Ideal S1x1024 .f32) (x13 : FVec Ideal S1024x2048 .bf16)
    (x16 : FVec Ideal S1x2048 .f32) (x29 : FVec Ideal S2048x1024 .bf16) (x32 : FVec Ideal S1x1024 .f32)
    (p : Fin 256) (q : Fin 1024) :
    k1_pay1 (F := Ideal) x0 x1 x5 x13 x16 x29 x32 (ix2 p q)
      = RbfSpec.rowOut (fun i => x0 (ix2 p i) * x1 (ix2 (0 : Fin 1) i) + x5 (ix2 (0 : Fin 1) i))
          (fun i k => x13 (ix2 i k)) (fun o k => x29 (ix2 k o)) (fun k => x16 (ix2 (0 : Fin 1) k))
          (fun o => x32 (ix2 (0 : Fin 1) o)) q := by
  unfold k1_pay1
  refine (mixed_apply _ x29 x32 _ _ _ _ p q).trans ?_
  unfold RbfSpec.rowOut
  refine congrArg (· + _) (Finset.sum_congr rfl fun c _ => ?_)
  rw [dist_apply _ x13 x16 _ _ _ _ _ _ _ _ _ p c]
  simp only [affine_apply]

end Cert.KernelIdeal.RbfValue

end
-- ==== Proof.Main.lean ====
/-
  The second kernel region: sixteen row blocks of 256 rows.  Each block is normalised by one multiply and one
  add with the per-feature scale and shift it is handed, compared with every centre, and the responses are
  multiplied into the outputs.  Block `t` writes rows 256·t … 256·t + 255 of the result, so the result array
  ends holding `out` of the normalised rows.

  The steps: where each window's block sits at point `t` (`block_indices`); each staged block read at a
  coordinate as the array it is cut from (`rows_apply` for the batch, whose block `t` is rows 256·t + p; the six
  other operands are staged whole, so their blocks are the arrays); the stored value at row `p` of block `t` as
  `out` at row 256·t + p (`block_row`); what point `t` writes back as block `t` of the one whole-array function
  `rbfOut` (`written_block`); the sixteen blocks cover the 4096 rows, row `r` lying in block `r / 256`
  (`array_value`).
-/
import proofs.«163010_j58385785421876_1_alg».proof.Proof.Gen.KernelIdeal.Frame
import proofs.«163010_j58385785421876_1_alg».proof.Proof.Spec
import proofs.«163010_j58385785421876_1_alg».proof.Proof.MainPayload
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RbfValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
/-- The staged buffers are read and written whole: through the rectangle at offsets (0, 0). -/
theorem zero_offsets : (![0, 0] : Fin 2 → Nat) = fun _ => 0 := funext fun a => by fin_cases a <;> rfl

/-- The block index of every window at every point of the grid: the batch (window 0) and the result (window 7) are at
    row block `t`, column block 0; the six other operands are always at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The staged blocks, read at a coordinate

An element of a block sits in its array, on each axis, at block index × block size + its coordinate in the block. -/

/-- Row `p` of the batch's block at point `t` is row `256·t + p` of the batch. -/
theorem rows_apply (c : Dev nD) (t : Fin cfg1.N) (p : Fin 256) (i : Fin 1024) (r : Fin 4096)
    (hr : r.val = 256 * t.val + p.val) :
    (iblk1 V c 0 t : FVec Ideal S256x1024 .f32) (ix2 p i) = V c main_arg0 (ix2 r i) := by
  obtain ⟨e0, e1, -⟩ := block_indices t
  unfold iblk1
  rw [View.read_apply]
  show V c main_arg0 _ = V c main_arg0 _
  congr 1
  funext a; apply Fin.ext
  match a with
  | ⟨0, _⟩ => show win1_0.index t 0 * 256 + 1 * p.val = r.val; rw [e0, hr]; omega
  | ⟨1, _⟩ => show win1_0.index t 1 * 1024 + 1 * i.val = i.val; rw [e1]; omega

/-- The scale row's block is the scale row. -/
theorem scale_apply (c : Dev nD) (t : Fin cfg1.N) (i : Fin 1024) :
    (iblk1 V c 1 t : FVec Ideal S1x1024 .f32) (ix2 (0 : Fin 1) i) = V c main_v11 (ix2 (0 : Fin 1) i) := by
  obtain ⟨-, -, e0, e1, -⟩ := block_indices t
  unfold iblk1
  rw [View.read_apply]
  show V c main_v11 _ = V c main_v11 _
  congr 1
  funext a; apply Fin.ext
  match a with
  | ⟨0, _⟩ => show win1_1.index t 0 * 1 + 1 * 0 = 0; rw [e0]
  | ⟨1, _⟩ => show win1_1.index t 1 * 1024 + 1 * i.val = i.val; rw [e1]; omega

/-- The shift row's block is the shift row. -/
theorem shift_apply (c : Dev nD) (t : Fin cfg1.N) (i : Fin 1024) :
    (iblk1 V c 2 t : FVec Ideal S1x1024 .f32) (ix2 (0 : Fin 1) i) = V c main_v14 (ix2 (0 : Fin 1) i) := by
  obtain ⟨-, -, -, -, e0, e1, -⟩ := block_indices t
  unfold iblk1
  rw [View.read_apply]
  show V c main_v14 _ = V c main_v14 _
  congr 1
  funext a; apply Fin.ext
  match a with
  | ⟨0, _⟩ => show win1_2.index t 0 * 1 + 1 * 0 = 0; rw [e0]
  | ⟨1, _⟩ => show win1_2.index t 1 * 1024 + 1 * i.val = i.val; rw [e1]; omega

/-- The centres' block is the array of centres. -/
theorem centres_apply (c : Dev nD) (t : Fin cfg1.N) (i : Fin 1024) (k : Fin 2048) :
    (iblk1 V c 3 t : FVec Ideal S1024x2048 .bf16) (ix2 i k) = V c main_v15 (ix2 i k) := by
  obtain ⟨-, -, -, -, -, -, e0, e1, -⟩ := block_indices t
  unfold iblk1
  rw [View.read_apply]
  show V c main_v15 _ = V c main_v15 _
  congr 1
  funext a; apply Fin.ext
  match a with
  | ⟨0, _⟩ => show win1_3.index t 0 * 1024 + 1 * i.val = i.val; rw [e0]; omega
  | ⟨1, _⟩ => show win1_3.index t 1 * 2048 + 1 * k.val = k.val; rw [e1]; omega

/-- The block of the centres' squared norms is their row. -/
theorem norms_apply (c : Dev nD) (t : Fin cfg1.N) (k : Fin 2048) :
    (iblk1 V c 4 t : FVec Ideal S1x2048 .f32) (ix2 (0 : Fin 1) k) = V c main_v20 (ix2 (0 : Fin 1) k) := by
  obtain ⟨-, -, -, -, -, -, -, -, e0, e1, -⟩ := block_indices t
  unfold iblk1
  rw [View.read_apply]
  show V c main_v20 _ = V c main_v20 _
  congr 1
  funext a; apply Fin.ext
  match a with
  | ⟨0, _⟩ => show win1_4.index t 0 * 1 + 1 * 0 = 0; rw [e0]
  | ⟨1, _⟩ => show win1_4.index t 1 * 2048 + 1 * k.val = k.val; rw [e1]; omega

/-- The transposed weights' block is their array. -/
theorem weights_apply (c : Dev nD) (t : Fin cfg1.N) (k : Fin 2048) (o : Fin 1024) :
    (iblk1 V c 5 t : FVec Ideal S2048x1024 .bf16) (ix2 k o) = V c main_v17 (ix2 k o) := by
  obtain ⟨-, -, -, -, -, -, -, -, -, -, e0, e1, -⟩ := block_indices t
  unfold iblk1
  rw [View.read_apply]
  show V c main_v17 _ = V c main_v17 _
  congr 1
  funext a; apply Fin.ext
  match a with
  | ⟨0, _⟩ => show win1_5.index t 0 * 2048 + 1 * k.val = k.val; rw [e0]; omega
  | ⟨1, _⟩ => show win1_5.index t 1 * 1024 + 1 * o.val = o.val; rw [e1]; omega

/-- The bias row's block is the bias row. -/
theorem bias_apply (c : Dev nD) (t : Fin cfg1.N) (o : Fin 1024) :
    (iblk1 V c 6 t : FVec Ideal S1x1024 .f32) (ix2 (0 : Fin 1) o) = V c main_v21 (ix2 (0 : Fin 1) o) := by
  obtain ⟨-, -, -, -, -, -, -, -, -, -, -, -, e0, e1, -⟩ := block_indices t
  unfold iblk1
  rw [View.read_apply]
  show V c main_v21 _ = V c main_v21 _
  congr 1
  funext a; apply Fin.ext
  match a with
  | ⟨0, _⟩ => show win1_6.index t 0 * 1 + 1 * 0 = 0; rw [e0]
  | ⟨1, _⟩ => show win1_6.index t 1 * 1024 + 1 * o.val = o.val; rw [e1]; omega

/-! ## One block's stored value -/

/-- If row `p` of the block `x0` is row `r` of the batch `xv`, and the six other staged operands are the scale, the
    shift, the centres, the centres' squared norms, the transposed weights and the bias, then the value stored at
    `(p, q)` is `out` of the rows `xv · sc + sh` at `(r, q)`: the output is computed row by row. -/
theorem block_row (x0 : FVec Ideal S256x1024 .f32) (x1 x5 : FVec Ideal S1x1024 .f32) (x13 : FVec Ideal S1024x2048 .bf16)
    (x16 : FVec Ideal S1x2048 .f32) (x29 : FVec Ideal S2048x1024 .bf16) (x32 : FVec Ideal S1x1024 .f32)
    (xv : Fin 4096 → Fin 1024 → EReal) (sc sh : Fin 1024 → EReal)
    (cen wt : Fin 1024 → Fin 2048 → EReal) (bias : Fin 1024 → EReal)
    (r : Fin 4096) (p : Fin 256) (q : Fin 1024)
    (h0 : ∀ i, x0 (ix2 p i) = xv r i) (h1 : ∀ i, x1 (ix2 (0 : Fin 1) i) = sc i)
    (h5 : ∀ i, x5 (ix2 (0 : Fin 1) i) = sh i) (h13 : ∀ i k, x13 (ix2 i k) = cen i k)
    (h16 : ∀ k, x16 (ix2 (0 : Fin 1) k) = RbfSpec.cenSq cen k) (h29 : ∀ k o, x29 (ix2 k o) = wt o k)
    (h32 : ∀ o, x32 (ix2 (0 : Fin 1) o) = bias o) :
    k1_pay1 (F := Ideal) x0 x1 x5 x13 x16 x29 x32 (ix2 p q)
      = RbfSpec.out (fun r i => xv r i * sc i + sh i) cen wt bias r q := by
  rw [pay1_apply, RbfSpec.out_eq_rowOut]
  simp only [h0, h1, h5, h13, h16, h29, h32]

/-! ## From the blocks to the array -/

/-- What the result array ends holding: `out` of the normalised rows, index by index. -/
abbrev rbfOut (xv : Fin 4096 → Fin 1024 → EReal) (sc sh : Fin 1024 → EReal)
    (cen wt : Fin 1024 → Fin 2048 → EReal) (bias : Fin 1024 → EReal) : S4096x1024.Idx → EReal :=
  fun j => RbfSpec.out (fun r i => xv r i * sc i + sh i) cen wt bias (j 0) (j 1)

/-- What point `t` writes back is block `t` of `rbfOut`: the body stores its value over the whole staging buffer,
    and entry `(p, q)` of that buffer lands at `(256·t + p, q)` of the result. -/
theorem written_block (c : Dev nD) (xv : Fin 4096 → Fin 1024 → EReal) (sc sh : Fin 1024 → EReal)
    (cen wt : Fin 1024 → Fin 2048 → EReal) (bias : Fin 1024 → EReal)
    (hx : ∀ r i, V c main_arg0 (ix2 r i) = xv r i)
    (hsc : ∀ i, V c main_v11 (ix2 (0 : Fin 1) i) = sc i)
    (hsh : ∀ i, V c main_v14 (ix2 (0 : Fin 1) i) = sh i)
    (hcen : ∀ i k, V c main_v15 (ix2 i k) = cen i k)
    (hcsq : ∀ k, V c main_v20 (ix2 (0 : Fin 1) k) = RbfSpec.cenSq cen k)
    (hwt : ∀ (k : Fin 2048) (o : Fin 1024), V c main_v17 (ix2 k o) = wt o k)
    (hb : ∀ o, V c main_v21 (ix2 (0 : Fin 1) o) = bias o)
    (t : Fin cfg1.N) :
    (dat1 V c).flushed 7 t = ((cfg1.win 7).blk t).view.read (Elt Ideal) (rbfOut xv sc sh cen wt bias) := by
  show (cfg1.win 7).cut (grid1.coords t) ((dat1 V c).after 7 t) = _
  rw [after1_7]
  unfold out1_7
  rw [View.canon_unit_zero zero_offsets]
  simp only [View.ld_unit_zero (S := S256x1024) zero_offsets, View.ld_unit_zero (S := S1x1024) zero_offsets,
    View.ld_unit_zero (S := S1024x2048) zero_offsets, View.ld_unit_zero (S := S1x2048) zero_offsets,
    View.ld_unit_zero (S := S2048x1024) zero_offsets]
  funext j
  obtain ⟨p, q, rfl⟩ : ∃ (p : Fin 256) (q : Fin 1024), j = ix2 p q := ⟨j 0, j 1, eq_ix2 j⟩
  have hN : t.val < 16 := lt_of_lt_of_eq t.isLt (show cfg1.N = 16 from N_1)
  have hp : p.val < 256 := p.isLt
  obtain ⟨-, -, -, -, -, -, -, -, -, -, -, -, -, -, e70, e71⟩ := block_indices t
  show k1_pay1 (F := Ideal) (iblk1 V c 0 t) (iblk1 V c 1 t) (iblk1 V c 2 t) (iblk1 V c 3 t) (iblk1 V c 4 t)
    (iblk1 V c 5 t) (iblk1 V c 6 t) (ix2 p q) = _
  refine (block_row (iblk1 V c 0 t) (iblk1 V c 1 t) (iblk1 V c 2 t) (iblk1 V c 3 t) (iblk1 V c 4 t)
    (iblk1 V c 5 t) (iblk1 V c 6 t) xv sc sh cen wt bias ⟨256 * t.val + p.val, by omega⟩ p q
    (fun i => (rows_apply V c t p i _ rfl).trans (hx _ i))
    (fun i => (scale_apply V c t i).trans (hsc i)) (fun i => (shift_apply V c t i).trans (hsh i))
    (fun i k => (centres_apply V c t i k).trans (hcen i k)) (fun k => (norms_apply V c t k).trans (hcsq k))
    (fun k o => (weights_apply V c t k o).trans (hwt k o)) (fun o => (bias_apply V c t o).trans (hb o))).trans ?_
  rw [View.read_apply]
  show RbfSpec.out _ cen wt bias _ _ = RbfSpec.out _ cen wt bias _ _
  congr 1 <;> apply Fin.ext
  · show 256 * t.val + p.val = win1_7.index t 0 * 256 + 1 * p.val
    rw [e70]; omega
  · show q.val = win1_7.index t 1 * 1024 + 1 * q.val
    rw [e71]; omega

/-- An index of the result is in point `t`'s block iff each coordinate is in the block's range on its axis. -/
theorem mem_block (t : Fin cfg1.N) (i : S4096x1024.Idx) :
    i ∈ ((cfg1.win 7).blk t).view.set ↔ ∀ a : Fin 2, win1_7.index t a * S256x1024.size a ≤ (i a).val
      ∧ (i a).val < win1_7.index t a * S256x1024.size a + S256x1024.size a := by
  show i ∈ ((View.whole main_v22).slice (win1_7.rect t)).set ↔ _
  rw [View.set_slice_whole, Rect.mem_set_unit]
  exact Iff.rfl

/-- The result array after the region: every point writes its block back, and row `r` lies in the block of point
    `r / 256`, so the sixteen blocks cover the array and it ends holding `rbfOut`. -/
theorem array_value (c : Dev nD) (xv : Fin 4096 → Fin 1024 → EReal) (sc sh : Fin 1024 → EReal)
    (cen wt : Fin 1024 → Fin 2048 → EReal) (bias : Fin 1024 → EReal)
    (hx : ∀ r i, V c main_arg0 (ix2 r i) = xv r i)
    (hsc : ∀ i, V c main_v11 (ix2 (0 : Fin 1) i) = sc i)
    (hsh : ∀ i, V c main_v14 (ix2 (0 : Fin 1) i) = sh i)
    (hcen : ∀ i k, V c main_v15 (ix2 i k) = cen i k)
    (hcsq : ∀ k, V c main_v20 (ix2 (0 : Fin 1) k) = RbfSpec.cenSq cen k)
    (hwt : ∀ (k : Fin 2048) (o : Fin 1024), V c main_v17 (ix2 k o) = wt o k)
    (hb : ∀ o, V c main_v21 (ix2 (0 : Fin 1) o) = bias o) :
    (dat1 V c).arrAt 7 cfg1.N = rbfOut xv sc sh cen wt bias :=
  (dat1 V c).arrAt_eq_of_cover 7 (rbfOut xv sc sh cen wt bias)
    (fun t _ => written_block V c xv sc sh cen wt bias hx hsc hsh hcen hcsq hwt hb t) fun i => by
      have hi0 : (i 0).val < 4096 := (i 0).isLt
      have hi1 : (i 1).val < 1024 := (i 1).isLt
      have hN : (i 0).val / 256 < cfg1.N := by rw [show cfg1.N = 16 from N_1]; omega
      refine ⟨⟨(i 0).val / 256, hN⟩, flush1_7 _, ?_⟩
      rw [mem_block]
      obtain ⟨-, -, -, -, -, -, -, -, -, -, -, -, -, -, e70, e71⟩ := block_indices ⟨(i 0).val / 256, hN⟩
      intro a
      match a with
      | ⟨0, _⟩ =>
        show win1_7.index ⟨(i 0).val / 256, hN⟩ 0 * 256 ≤ (i 0).val
          ∧ (i 0).val < win1_7.index ⟨(i 0).val / 256, hN⟩ 0 * 256 + 256
        rw [e70]; show (i 0).val / 256 * 256 ≤ (i 0).val ∧ (i 0).val < (i 0).val / 256 * 256 + 256; omega
      | ⟨1, _⟩ =>
        show win1_7.index ⟨(i 0).val / 256, hN⟩ 1 * 1024 ≤ (i 1).val
          ∧ (i 1).val < win1_7.index ⟨(i 0).val / 256, hN⟩ 1 * 1024 + 1024
        rw [e71]; omega

/-- Whatever the region's seven operand arrays hold on entry — the batch `xv`, a scale `sc`, a shift `sh`, the
    centres `cen` with their squared norms, the transposed weights `wt` and the bias —, its result array ends at
    `out` of the rows `xv · sc + sh`. -/
theorem region1_value (c : Dev nD) (xv : Fin 4096 → Fin 1024 → EReal) (sc sh : Fin 1024 → EReal)
    (cen wt : Fin 1024 → Fin 2048 → EReal) (bias : Fin 1024 → EReal)
    (hx : ∀ r i, V c main_arg0 (ix2 r i) = xv r i)
    (hsc : ∀ i, V c main_v11 (ix2 (0 : Fin 1) i) = sc i)
    (hsh : ∀ i, V c main_v14 (ix2 (0 : Fin 1) i) = sh i)
    (hcen : ∀ i k, V c main_v15 (ix2 i k) = cen i k)
    (hcsq : ∀ k, V c main_v20 (ix2 (0 : Fin 1) k) = RbfSpec.cenSq cen k)
    (hwt : ∀ (k : Fin 2048) (o : Fin 1024), V c main_v17 (ix2 k o) = wt o k)
    (hb : ∀ o, V c main_v21 (ix2 (0 : Fin 1) o) = bias o)
    (r : Fin 4096) (o : Fin 1024) :
    (dat1 V c).arrAt 7 cfg1.N (ix2 r o)
      = RbfSpec.out (fun r i => xv r i * sc i + sh i) cen wt bias r o :=
  congrFun (array_value V c xv sc sh cen wt bias hx hsc hsh hcen hcsq hwt hb) (ix2 r o)

end Cert.KernelIdeal.RbfValue

end
-- ==== Proof.Entry.lean ====
/-
  Between the two kernel regions the host computes, from the two accumulators, the per-feature mean, the
  variance as mean of squares minus squared mean, the reciprocal root, and from them the fused scale
  `γ · rsqrt(var + ε)` and shift `β − mean · scale`; it also re-lays the centres, sums their squares column by
  column, transposes the weights and reshapes the bias.  Read here: what each operand array of the second region
  holds when that region is entered, coordinate by coordinate, as a function of the launch arguments.
-/
import proofs.«163010_j58385785421876_1_alg».proof.Proof.Gen.KernelIdeal.Frame
import proofs.«163010_j58385785421876_1_alg».proof.Proof.Spec
import proofs.«163010_j58385785421876_1_alg».proof.Proof.Args
import proofs.«163010_j58385785421876_1_alg».proof.Proof.Stats
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.RbfValue

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.StableHlo

variable (m : (ℓ : Loc nD τ sig) → Buf (Elt Ideal) ℓ) (ρ : Dev nD → PrngReg)

/-! ## What the first region leaves -/

/-- The batch array is an input of the first region: it leaves it as launched. -/
theorem exit0_arg0 (c : Dev nD) : W1 m ρ c (Proc.devRef .tc main_arg0) = m ((c.tc : Thread nD τ).loc main_arg0) :=
  (W1_arr m ρ c 0).trans (((dat0 (V0 m ρ) c).arrAt_in 0 rfl _).trans (A_eq0 (V0 m ρ) c 0))

/-- The other arguments are no array of the first region. -/
theorem exit0_arg1 (c : Dev nD) : W1 m ρ c (Proc.devRef .tc main_arg1) = m ((c.tc : Thread nD τ).loc main_arg1) :=
  W1_of_ne m ρ c main_arg1 (by decide)
theorem exit0_arg2 (c : Dev nD) : W1 m ρ c (Proc.devRef .tc main_arg2) = m ((c.tc : Thread nD τ).loc main_arg2) :=
  W1_of_ne m ρ c main_arg2 (by decide)
theorem exit0_arg3 (c : Dev nD) : W1 m ρ c (Proc.devRef .tc main_arg3) = m ((c.tc : Thread nD τ).loc main_arg3) :=
  W1_of_ne m ρ c main_arg3 (by decide)
theorem exit0_arg4 (c : Dev nD) : W1 m ρ c (Proc.devRef .tc main_arg4) = m ((c.tc : Thread nD τ).loc main_arg4) :=
  W1_of_ne m ρ c main_arg4 (by decide)
theorem exit0_arg5 (c : Dev nD) : W1 m ρ c (Proc.devRef .tc main_arg5) = m ((c.tc : Thread nD τ).loc main_arg5) :=
  W1_of_ne m ρ c main_arg5 (by decide)

/-- The first accumulator's array: each feature's sum over the batch. -/
theorem exit0_sum (c : Dev nD) (i : Fin 1024) :
    W1 m ρ c (Proc.devRef .tc main_v0_0) (ix2 (0 : Fin 1) i) = RbfSpec.colSum (X m c) i :=
  (congrFun (W1_arr m ρ c 1) (ix2 (0 : Fin 1) i)).trans (stats_sum (V0 m ρ) c (X m c) (fun _ _ => rfl) i)

/-- The second accumulator's array: each feature's sum of squares over the batch. -/
theorem exit0_sumsq (c : Dev nD) (i : Fin 1024) :
    W1 m ρ c (Proc.devRef .tc main_v0_1) (ix2 (0 : Fin 1) i) = RbfSpec.colSumSq (X m c) i :=
  (congrFun (W1_arr m ρ c 2) (ix2 (0 : Fin 1) i)).trans (stats_sumsq (V0 m ρ) c (X m c) (fun _ _ => rfl) i)

/-! ## The host's arithmetic, read at a coordinate -/

/-- The variance-plus-ε under the root, from the two sums' rows: (sumsq/n − (sum/n)·(sum/n)) + ε. -/
def underRoot (s0 s1 : FVec Ideal S1x1024 .f32) (j : S1x1024.Idx) : EReal :=
  (Ideal.div (s1 j) RbfSpec.nB - Ideal.div (s0 j) RbfSpec.nB * Ideal.div (s0 j) RbfSpec.nB) + RbfSpec.eps

/-- The host's scale row at a coordinate: the γ row times the reciprocal root. -/
theorem scale_row_apply (g s0 s1 : FVec Ideal S1x1024 .f32) (j : S1x1024.Idx) :
    mulf g (Host.rsqrt (addf (subf
        (Host.divf s1 (broadcastInDim S1x1024 ![] bcast_S_S1x1024 (constant S_ .f32 0x45800000#32)))
        (mulf (Host.divf s0 (broadcastInDim S1x1024 ![] bcast_S_S1x1024 (constant S_ .f32 0x45800000#32)))
          (Host.divf s0 (broadcastInDim S1x1024 ![] bcast_S_S1x1024 (constant S_ .f32 0x45800000#32)))))
        (broadcastInDim S1x1024 ![] bcast_S_S1x1024 (constant S_ .f32 0x3727C5AC#32)))) j
      = g j * Ideal.rsqrt (underRoot s0 s1 j) := rfl

/-- The host's shift row at a coordinate: the β row minus the mean times the scale. -/
theorem shift_row_apply (b g s0 s1 : FVec Ideal S1x1024 .f32) (j : S1x1024.Idx) :
    subf b (mulf (Host.divf s0 (broadcastInDim S1x1024 ![] bcast_S_S1x1024 (constant S_ .f32 0x45800000#32)))
      (mulf g (Host.rsqrt (addf (subf
        (Host.divf s1 (broadcastInDim S1x1024 ![] bcast_S_S1x1024 (constant S_ .f32 0x45800000#32)))
        (mulf (Host.divf s0 (broadcastInDim S1x1024 ![] bcast_S_S1x1024 (constant S_ .f32 0x45800000#32)))
          (Host.divf s0 (broadcastInDim S1x1024 ![] bcast_S_S1x1024 (constant S_ .f32 0x45800000#32)))))
        (broadcastInDim S1x1024 ![] bcast_S_S1x1024 (constant S_ .f32 0x3727C5AC#32)))))) j
      = b j - Ideal.div (s0 j) RbfSpec.nB * (g j * Ideal.rsqrt (underRoot s0 s1 j)) := rfl

/-- With the two accumulators' rows at the batch's sums, what stands under the root is the variance (mean of
    squares minus squared mean) plus ε. -/
theorem underRoot_exit0 (c : Dev nD) (i : Fin 1024) :
    underRoot (W1 m ρ c (Proc.devRef .tc main_v0_0)) (W1 m ρ c (Proc.devRef .tc main_v0_1)) (ix2 (0 : Fin 1) i)
      = RbfSpec.varOfSquares (X m c) i + RbfSpec.eps := by
  unfold underRoot
  rw [exit0_sum, exit0_sumsq]
  rfl

/-! ## What the second region finds -/

/-- The batch is untouched when the second region is entered. -/
theorem entry_x (c : Dev nD) (r : Fin 4096) (i : Fin 1024) : V2 m ρ c main_arg0 (ix2 r i) = X m c r i := by
  show StableHlo.after hostOps1 (W1 m ρ c) (Proc.devRef .tc main_arg0) (ix2 r i) = _
  after_results
  rw [exit0_arg0]

/-- The second region's scale operand is the fused scale. -/
theorem entry_scale (c : Dev nD) (i : Fin 1024) :
    V2 m ρ c main_v11 (ix2 (0 : Fin 1) i) = RbfSpec.scale (X m c) (Γ m c) i := by
  show StableHlo.after hostOps1 (W1 m ρ c) (Proc.devRef .tc main_v11) (ix2 (0 : Fin 1) i) = _
  after_results
  refine (scale_row_apply _ _ _ _).trans ?_
  rw [underRoot_exit0]
  unfold RbfSpec.scale
  refine congrArg (· * Ideal.rsqrt (RbfSpec.varOfSquares (X m c) i + RbfSpec.eps)) ?_
  rw [exit0_arg1]
  exact shapeCast_a_1a_apply _ _ 0 i

/-- The second region's shift operand is the fused shift. -/
theorem entry_shift (c : Dev nD) (i : Fin 1024) :
    V2 m ρ c main_v14 (ix2 (0 : Fin 1) i) = RbfSpec.shift (X m c) (Γ m c) (Β m c) i := by
  show StableHlo.after hostOps1 (W1 m ρ c) (Proc.devRef .tc main_v14) (ix2 (0 : Fin 1) i) = _
  after_results
  refine (shift_row_apply _ _ _ _ _).trans ?_
  rw [underRoot_exit0, exit0_sum]
  unfold RbfSpec.shift RbfSpec.scale RbfSpec.mean
  refine congrArg₂ (fun a b => a - Ideal.div (RbfSpec.colSum (X m c) i) RbfSpec.nB
      * (b * Ideal.rsqrt (RbfSpec.varOfSquares (X m c) i + RbfSpec.eps))) ?_ ?_
  · rw [exit0_arg2]
    exact shapeCast_a_1a_apply _ _ 0 i
  · rw [exit0_arg1]
    exact shapeCast_a_1a_apply _ _ 0 i

/-- The centres operand holds the centres. -/
theorem entry_cen (c : Dev nD) (i : Fin 1024) (k : Fin 2048) : V2 m ρ c main_v15 (ix2 i k) = Cen m c i k := by
  show StableHlo.after hostOps1 (W1 m ρ c) (Proc.devRef .tc main_v15) (ix2 i k) = _
  after_results
  rw [exit0_arg3]
  rfl

/-- The squared-norm operand holds each centre's squared norm. -/
theorem entry_censq (c : Dev nD) (k : Fin 2048) :
    V2 m ρ c main_v20 (ix2 (0 : Fin 1) k) = RbfSpec.cenSq (Cen m c) k := by
  show StableHlo.after hostOps1 (W1 m ρ c) (Proc.devRef .tc main_v20) (ix2 (0 : Fin 1) k) = _
  after_results
  rw [exit0_arg3]
  -- the row broadcast reads the reduced vector at k
  refine (broadcastInDim_apply _ bcast_S2048_S1x2048_1 _ (ix2 (0 : Fin 1) k) (ix1 k) (fun a => match a with
    | ⟨0, _⟩ => by show k.val = if (2048 : Nat) = 1 then 0 else k.val; rw [if_neg (by decide)])).trans ?_
  -- the reduce over the first axis is zero plus the column's sum
  have hR : S1024x2048.Reduces [0] S2048 := by decide
  simp only [Host.reduceAdd, Ideal.hostReduceAdd_def]
  rw [Ideal.hostReduceAdd_single reducesTo_S1024x2048_S2048_d0 hR]
  show Ideal.ofBits .f32 0x00000000#32 + _ = _
  rw [Ideal.ofBits_zero_f32, zero_add]
  unfold RbfSpec.cenSq
  refine Finset.sum_congr rfl fun i _ => ?_
  -- the reduced axis put back: coordinate (i, k)
  have e : hR.lift (ix1 k) i = ix2 i k :=
    funext fun a => Fin.ext (by match a with | ⟨0, _⟩ => rfl | ⟨1, _⟩ => rfl)
  rw [e]
  rfl

/-- The weights operand holds the weights transposed. -/
theorem entry_wt (c : Dev nD) (k : Fin 2048) (o : Fin 1024) : V2 m ρ c main_v17 (ix2 k o) = Wt m c o k := by
  show StableHlo.after hostOps1 (W1 m ρ c) (Proc.devRef .tc main_v17) (ix2 k o) = _
  after_results
  rw [exit0_arg4]
  exact transpose_ix2_apply _ _ k o

/-- The bias operand holds the bias. -/
theorem entry_bias (c : Dev nD) (o : Fin 1024) : V2 m ρ c main_v21 (ix2 (0 : Fin 1) o) = Bias m c o := by
  show StableHlo.after hostOps1 (W1 m ρ c) (Proc.devRef .tc main_v21) (ix2 (0 : Fin 1) o) = _
  after_results
  rw [exit0_arg5]
  exact shapeCast_a_1a_apply _ _ 0 o

end Cert.KernelIdeal.RbfValue

end
-- ==== Proof.RefValue.lean ====
/-
  The reference program read at a coordinate: its result at row `r`, output `o` is `out` of the rows normalised
  the plain way (centre, rescale by the reciprocal root of the mean squared deviation, scale, shift).
-/
import proofs.«163010_j58385785421876_1_alg».proof.Proof.Gen.ReferenceIdeal.Read
import proofs.«163010_j58385785421876_1_alg».proof.Proof.Spec
import Idealize.ShloMosaic.Lib.ValueIdx
import Idealize.ShloMosaic.PureOps.Ideal.Laws

noncomputable section

namespace Cert.ReferenceIdeal.RbfValue

open Cert.ReferenceIdeal Cert.ReferenceIdeal.Gen Cert.ReferenceIdeal.Read
open Idealize.ShloMosaic Idealize.ShloMosaic.ValueIdx Idealize.SL.Sem

/-! ### The composed index maps of the layout stages, at a coordinate -/

section Indices

theorem idx_v0 (i : Fin 1024) (k : Fin 4096) : idx_main_v0 (ix1 i) k = ix2 k i :=
  funext fun a => Fin.ext (by match a with | ⟨0, _⟩ => rfl | ⟨1, _⟩ => rfl)
theorem idx_v7 (i : Fin 1024) (k : Fin 4096) : idx_main_v7 (ix1 i) k = ix2 k i :=
  funext fun a => Fin.ext (by match a with | ⟨0, _⟩ => rfl | ⟨1, _⟩ => rfl)
theorem idx_v26 (r : Fin 4096) (k : Fin 1024) : idx_main_v26 (ix1 r) k = ix2 r k :=
  funext fun a => Fin.ext (by match a with | ⟨0, _⟩ => rfl | ⟨1, _⟩ => rfl)
theorem idx_v29 (c : Fin 2048) (k : Fin 1024) : idx_main_v29 (ix1 c) k = ix2 k c :=
  funext fun a => Fin.ext (by match a with | ⟨0, _⟩ => rfl | ⟨1, _⟩ => rfl)
theorem idx_v3_v4 (r : Fin 4096) (i : Fin 1024) : idx_main_v3 (idx_main_v4 (ix2 r i)) = ix1 i :=
  funext fun a => Fin.ext (by match a with | ⟨0, _⟩ => rfl)
theorem idx_v10_v11 (r : Fin 4096) (i : Fin 1024) : idx_main_v10 (idx_main_v11 (ix2 r i)) = ix1 i :=
  funext fun a => Fin.ext (by match a with | ⟨0, _⟩ => rfl)
theorem idx_v16_v17 (r : Fin 4096) (i : Fin 1024) : idx_main_v16 (idx_main_v17 (ix2 r i)) = ix1 i :=
  funext fun a => Fin.ext (by match a with | ⟨0, _⟩ => rfl)
theorem idx_v19_v20 (r : Fin 4096) (i : Fin 1024) : idx_main_v19 (idx_main_v20 (ix2 r i)) = ix1 i :=
  funext fun a => Fin.ext (by match a with | ⟨0, _⟩ => rfl)
theorem idx_v22_v23 (r : Fin 4096) (i : Fin 1024) : idx_main_v22 (idx_main_v23 (ix2 r i)) = ix1 i :=
  funext fun a => Fin.ext (by match a with | ⟨0, _⟩ => rfl)
theorem idx_v42_v43 (r : Fin 4096) (i : Fin 1024) : idx_main_v42 (idx_main_v43 (ix2 r i)) = ix1 i :=
  funext fun a => Fin.ext (by match a with | ⟨0, _⟩ => rfl)
theorem idx_v27_v31 (r : Fin 4096) (c : Fin 2048) : idx_main_v27 (idx_main_v31 (ix2 r c)) = ix1 r :=
  funext fun a => Fin.ext (by match a with | ⟨0, _⟩ => rfl)
theorem idx_v30_v32 (r : Fin 4096) (c : Fin 2048) : idx_main_v30 (idx_main_v32 (ix2 r c)) = ix1 c :=
  funext fun a => Fin.ext (by match a with | ⟨0, _⟩ => rfl)
theorem lidx_v34 (r : Fin 4096) (c : Fin 2048) (k : Fin 1024) : lidx_main_v34 (ix2 r c) k = ix2 r k :=
  funext fun a => Fin.ext (by match a with | ⟨0, _⟩ => rfl | ⟨1, _⟩ => rfl)
theorem ridx_v34 (r : Fin 4096) (c : Fin 2048) (k : Fin 1024) : ridx_main_v34 (ix2 r c) k = ix2 k c :=
  funext fun a => Fin.ext (by match a with | ⟨0, _⟩ => rfl | ⟨1, _⟩ => rfl)
theorem lidx_v41 (r : Fin 4096) (o : Fin 1024) (k : Fin 2048) : lidx_main_v41 (ix2 r o) k = ix2 r k :=
  funext fun a => Fin.ext (by match a with | ⟨0, _⟩ => rfl | ⟨1, _⟩ => rfl)
theorem ridx_v41 (r : Fin 4096) (o : Fin 1024) (k : Fin 2048) : ridx_main_v41 (ix2 r o) k = ix2 o k :=
  funext fun a => Fin.ext (by match a with | ⟨0, _⟩ => rfl | ⟨1, _⟩ => rfl)

end Indices

section Stages

variable (x0 : (⟨S4096x1024, .f32⟩ : BufTy).Contents (Elt Ideal)) (x1 x2 : (⟨S1024, .f32⟩ : BufTy).Contents (Elt Ideal))
  (x3 x4 : (⟨S1024x2048, .f32⟩ : BufTy).Contents (Elt Ideal)) (x5 : (⟨S1024, .f32⟩ : BufTy).Contents (Elt Ideal))

/-- The batch mean of feature `i`: the column sum over 4096. -/
theorem mean_value (i : Fin 1024) :
    val_main_v2 (F := Ideal) x0 (ix1 i) = RbfSpec.mean (fun r i => x0 (ix2 r i)) i := by
  rw [val_main_v2_apply, val_main_v0_apply, val_main_v1_apply, val_main_cst_apply, val_main_cst_0_apply]
  simp only [idx_v0, Ideal.hostDivf_def, Ideal.ofBits_def, Ideal.ofBits_zero_f32, zero_add]
  rfl

/-- The centred entry, as the variance's summand uses it. -/
theorem centred_value (r : Fin 4096) (i : Fin 1024) :
    val_main_v5 (F := Ideal) x0 (ix2 r i) = x0 (ix2 r i) - RbfSpec.mean (fun r i => x0 (ix2 r i)) i := by
  rw [val_main_v5_apply, val_main_v4_apply, val_main_v3_apply, idx_v3_v4, mean_value]
  rfl

/-- The centred entry, as the normalisation uses it. -/
theorem centred_value' (r : Fin 4096) (i : Fin 1024) :
    val_main_v12 (F := Ideal) x0 (ix2 r i) = x0 (ix2 r i) - RbfSpec.mean (fun r i => x0 (ix2 r i)) i := by
  rw [val_main_v12_apply, val_main_v11_apply, val_main_v10_apply, idx_v10_v11, mean_value]
  rfl

/-- The variance of feature `i`: the mean of the squared deviations. -/
theorem var_value (i : Fin 1024) :
    val_main_v9 (F := Ideal) x0 (ix1 i) = RbfSpec.varOfDeviations (fun r i => x0 (ix2 r i)) i := by
  rw [val_main_v9_apply, val_main_v7_apply, val_main_v8_apply, val_main_cst_1_apply, val_main_cst_2_apply]
  simp only [idx_v7, val_main_v6_apply, centred_value, Ideal.hostDivf_def, Ideal.mulf_def, Ideal.ofBits_def,
    Ideal.ofBits_zero_f32, zero_add]
  rfl

/-- The normalised array: centre, rescale, scale, shift. -/
theorem norm_value (r : Fin 4096) (i : Fin 1024) :
    val_main_v24 (F := Ideal) x0 x1 x2 (ix2 r i)
      = RbfSpec.normPlain (fun r i => x0 (ix2 r i)) (fun i => x1 (ix1 i)) (fun i => x2 (ix1 i)) r i := by
  rw [val_main_v24_apply, val_main_v21_apply, val_main_v18_apply, centred_value',
    val_main_v17_apply, val_main_v16_apply, idx_v16_v17, val_main_v15_apply, val_main_v14_apply, var_value,
    val_main_v13_apply, val_main_cst_3_apply,
    val_main_v20_apply, val_main_v19_apply, idx_v19_v20,
    val_main_v23_apply, val_main_v22_apply, idx_v22_v23]
  simp only [Ideal.addf_def, Ideal.mulf_def, Ideal.hostUnary_rsqrt_def, Ideal.ofBits_def]
  rfl

/-- The squared norm of a normalised row. -/
theorem rowSq_value (r : Fin 4096) :
    val_main_v26 (F := Ideal) x0 x1 x2 (ix1 r)
      = RbfSpec.rowSq (RbfSpec.normPlain (fun r i => x0 (ix2 r i)) (fun i => x1 (ix1 i)) (fun i => x2 (ix1 i))) r := by
  rw [val_main_v26_apply, val_main_cst_4_apply]
  simp only [idx_v26, val_main_v25_apply, norm_value, Ideal.mulf_def, Ideal.ofBits_def, Ideal.ofBits_zero_f32, zero_add]
  rfl

/-- The squared norm of a centre. -/
theorem cenSq_value (c : Fin 2048) :
    val_main_v29 (F := Ideal) x3 (ix1 c) = RbfSpec.cenSq (fun i k => x3 (ix2 i k)) c := by
  rw [val_main_v29_apply, val_main_cst_5_apply]
  simp only [idx_v29, val_main_v28_apply, Ideal.mulf_def, Ideal.ofBits_def, Ideal.ofBits_zero_f32, zero_add]
  rfl

/-- The inner product of a normalised row with a centre. -/
theorem cross_value (r : Fin 4096) (c : Fin 2048) :
    val_main_v34 (F := Ideal) x0 x1 x2 x3 (ix2 r c)
      = RbfSpec.cross (RbfSpec.normPlain (fun r i => x0 (ix2 r i)) (fun i => x1 (ix1 i)) (fun i => x2 (ix1 i)))
          (fun i k => x3 (ix2 i k)) r c := by
  rw [val_main_v34_apply]
  simp only [lidx_v34, ridx_v34, norm_value]
  rfl

/-- The expanded squared distance. -/
theorem dist_value (r : Fin 4096) (c : Fin 2048) :
    val_main_v37 (F := Ideal) x0 x1 x2 x3 (ix2 r c)
      = RbfSpec.dist (RbfSpec.normPlain (fun r i => x0 (ix2 r i)) (fun i => x1 (ix1 i)) (fun i => x2 (ix1 i)))
          (fun i k => x3 (ix2 i k)) r c := by
  rw [val_main_v37_apply, val_main_v33_apply, val_main_v31_apply, val_main_v27_apply, idx_v27_v31, rowSq_value,
    val_main_v32_apply, val_main_v30_apply, idx_v30_v32, cenSq_value,
    val_main_v36_apply, val_main_v35_apply, val_main_cst_6_apply, cross_value]
  simp only [Ideal.addf_def, Ideal.subf_def, Ideal.mulf_def, Ideal.ofBits_def]
  rfl

/-- The response. -/
theorem resp_value (r : Fin 4096) (c : Fin 2048) :
    val_main_v40 (F := Ideal) x0 x1 x2 x3 (ix2 r c)
      = RbfSpec.resp (RbfSpec.normPlain (fun r i => x0 (ix2 r i)) (fun i => x1 (ix1 i)) (fun i => x2 (ix1 i)))
          (fun i k => x3 (ix2 i k)) r c := by
  rw [val_main_v40_apply, val_main_v39_apply, val_main_v38_apply, dist_value]
  simp only [Ideal.mulf_def, Ideal.hostNegf_def, Ideal.negf_def, Ideal.hostUnary_exp_def]
  rfl

end Stages

/-- The reference's last stage at `(r, o)`. -/
theorem ref_value (x0 : (⟨S4096x1024, .f32⟩ : BufTy).Contents (Elt Ideal)) (x1 x2 : (⟨S1024, .f32⟩ : BufTy).Contents (Elt Ideal))
    (x3 x4 : (⟨S1024x2048, .f32⟩ : BufTy).Contents (Elt Ideal)) (x5 : (⟨S1024, .f32⟩ : BufTy).Contents (Elt Ideal))
    (r : Fin 4096) (o : Fin 1024) :
    val_main_v44 (F := Ideal) x0 x1 x2 x3 x4 x5 (ix2 r o)
      = RbfSpec.out (RbfSpec.normPlain (fun r i => x0 (ix2 r i)) (fun i => x1 (ix1 i)) (fun i => x2 (ix1 i)))
          (fun i k => x3 (ix2 i k)) (fun o k => x4 (ix2 o k)) (fun o => x5 (ix1 o)) r o := by
  rw [val_main_v44_apply, val_main_v41_apply, val_main_v43_apply, val_main_v42_apply, idx_v42_v43]
  simp only [lidx_v41, ridx_v41, resp_value, Ideal.addf_def]
  rfl

end Cert.ReferenceIdeal.RbfValue

end
-- ==== Proof.Norm.lean ====
/-
  The one law that joins the two programs.  For a batch of real numbers, real `γ` and `β`:
    * the mean of squares minus the squared mean IS the mean of squared deviations
      (expand (x − μ)², sum, and use Σx = n·μ);
    * that common variance is ≥ 0, so variance + ε > 0 and its reciprocal root is a real number `ρ`;
    * x·(γ·ρ) + (β − μ·(γ·ρ)) = (x − μ)·ρ·γ + β, by distributivity, which holds because every factor is real.
  Over the extended reals distributivity fails at the infinities: this is where finiteness of the inputs is used.
-/
import proofs.«163010_j58385785421876_1_alg».proof.Proof.Spec

noncomputable section

namespace Cert.RbfSpec

open Idealize.ShloMosaic

/-! ### The two literals -/

/-- The batch-size literal denotes the real number 4096 = 2¹². -/
theorem nB_eq : nB = ((4096 : ℝ) : EReal) := by
  simp [nB, Ideal.ofBits, Ideal.ieee, -EReal.coe_mul]; norm_num

/-- The variance offset is a normal positive number: sign bit 0, exponent field 110, so its value is
    (2²³ + fraction) · 2^(110 − 127 − 23), a positive real. -/
theorem eps_pos : ∃ e : ℝ, 0 < e ∧ eps = (e : EReal) := by
  simp [eps, Ideal.ofBits, Ideal.ieee, -EReal.coe_mul]

/-! ### Real sums inside the extended reals -/

/-- The inclusion of the reals in the extended reals is additive, hence commutes with finite sums. -/
theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-! ### The identity in the reals -/

/-- Σ (Xᵣ − μ)² = Σ Xᵣ² − 2μ·Σ Xᵣ + n·μ², for any real μ and a batch of n = 4096 reals. -/
theorem sum_sq_dev (X : Fin 4096 → ℝ) (μ : ℝ) :
    ∑ r, (X r - μ) * (X r - μ) = (∑ r, X r * X r) - 2 * μ * (∑ r, X r) + 4096 * (μ * μ) := by
  have h : ∀ r, (X r - μ) * (X r - μ) = X r * X r - 2 * μ * X r + μ * μ := fun r => by ring
  simp only [h, Finset.sum_add_distrib, Finset.sum_sub_distrib, ← Finset.mul_sum, Finset.sum_const,
    Finset.card_univ, Fintype.card_fin, nsmul_eq_mul]
  ring

/-- Mean of squares minus squared mean equals the mean of squared deviations from the mean. -/
theorem var_eq (X : Fin 4096 → ℝ) :
    (∑ r, X r * X r) * (1 / 4096) - (∑ r, X r) * (1 / 4096) * ((∑ r, X r) * (1 / 4096))
      = (∑ r, (X r - (∑ r, X r) * (1 / 4096)) * (X r - (∑ r, X r) * (1 / 4096))) * (1 / 4096) := by
  rw [sum_sq_dev]; ring

/-- The mean of squared deviations is not negative. -/
theorem var_nonneg (X : Fin 4096 → ℝ) (μ : ℝ) :
    0 ≤ (∑ r, (X r - μ) * (X r - μ)) * (1 / 4096) :=
  mul_nonneg (Finset.sum_nonneg fun r _ => mul_self_nonneg _) (by norm_num)

/-- The reciprocal root of a positive real is the real reciprocal root. -/
theorem rsqrt_pos {t : ℝ} (ht : 0 < t) : Ideal.rsqrt (t : EReal) = (((Real.sqrt t)⁻¹ : ℝ) : EReal) := by
  rw [Ideal.rsqrt_coe, if_neg (not_lt.mpr ht.le), if_neg ht.ne']

/-! ### The law -/

/-- On finite inputs the fused and the plain normalisation agree. -/
theorem normFused_eq_normPlain (x : Fin 4096 → Fin 1024 → EReal) (γ β : Fin 1024 → EReal)
    (hx : ∀ r i, ∃ v : ℝ, x r i = (v : EReal)) (hγ : ∀ i, ∃ v : ℝ, γ i = (v : EReal))
    (hβ : ∀ i, ∃ v : ℝ, β i = (v : EReal)) :
    normFused x γ β = normPlain x γ β := by
  funext r i
  -- real witnesses for column `i`, for `γ i`, `β i` and for the offset
  choose X hX using fun r' => hx r' i
  obtain ⟨g, hg⟩ := hγ i
  obtain ⟨b, hb⟩ := hβ i
  obtain ⟨e, he0, he⟩ := eps_pos
  have h4096 : (4096 : ℝ) ≠ 0 := by norm_num
  -- every quantity of column `i` is (the image of) a real number
  have hsum : colSum x i = ((∑ r', X r' : ℝ) : EReal) := by
    simp only [colSum, hX, coe_sum]
  have hsumsq : colSumSq x i = ((∑ r', X r' * X r' : ℝ) : EReal) := by
    simp only [colSumSq, hX, coe_sum, EReal.coe_mul]
  have hmean : mean x i = (((∑ r', X r') * (1 / 4096) : ℝ) : EReal) := by
    rw [mean, hsum, nB_eq, Ideal.div_coe h4096, ← EReal.coe_mul]
  have hvs : varOfSquares x i
      = (((∑ r', X r' * X r') * (1 / 4096)
          - (∑ r', X r') * (1 / 4096) * ((∑ r', X r') * (1 / 4096)) : ℝ) : EReal) := by
    rw [varOfSquares, hsumsq, hmean, nB_eq, Ideal.div_coe h4096, ← EReal.coe_mul, ← EReal.coe_mul,
      ← EReal.coe_sub]
  have hvd : varOfDeviations x i
      = (((∑ r', (X r' - (∑ r', X r') * (1 / 4096)) * (X r' - (∑ r', X r') * (1 / 4096)))
          * (1 / 4096) : ℝ) : EReal) := by
    rw [varOfDeviations, hmean, nB_eq, Ideal.div_coe h4096]
    simp only [hX, coe_sum, EReal.coe_mul, EReal.coe_sub]
  -- the two variances are one non-negative real; adding the offset makes it positive
  have hpos : 0 < (∑ r', (X r' - (∑ r', X r') * (1 / 4096)) * (X r' - (∑ r', X r') * (1 / 4096)))
      * (1 / 4096) + e := add_pos_of_nonneg_of_pos (var_nonneg X _) he0
  rw [var_eq] at hvs
  simp only [normFused, normPlain, scale, shift, hmean, hvs, hvd, he, hX r, hg, hb, ← EReal.coe_add,
    rsqrt_pos hpos, ← EReal.coe_mul, ← EReal.coe_sub]
  congr 1
  ring

end Cert.RbfSpec

end
-- ==== Proof.Finite.lean ====
/-
  What the precondition says, unpacked: every entry of every argument array is strictly below +∞ in absolute
  value, hence a real number.  (Only the batch, `γ` and `β` are needed by the law that joins the two programs.)
-/
import proofs.«163010_j58385785421876_1_alg».proof.Defs
import proofs.«163010_j58385785421876_1_alg».proof.Proof.Gen.Pre_finite_inputs
import proofs.«163010_j58385785421876_1_alg».proof.Proof.Args
import Idealize.ShloMosaic.Lib.ReduceAll
import Idealize.ShloMosaic.Lib.ValueIdx

noncomputable section

namespace Cert.KernelIdeal.RbfValue

open Cert.KernelIdeal Idealize.ShloMosaic Idealize.ShloMosaic.ValueIdx Idealize.SL.Sem

/-- An extended real whose absolute value `max x (-x)` lies strictly below `⊤` is neither infinity,
    hence a real number. -/
theorem real_of_abs_lt_top (x : EReal) (h : max x (-x) < ⊤) : ∃ v : ℝ, x = (v : EReal) := by
  induction x using EReal.rec with
  | bot => simp at h
  | coe v => exact ⟨v, rfl⟩
  | top => simp at h

/-- The word `0x7F800000` denotes `+∞`. -/
theorem inf_word_eq_top : Ideal.ofBits .f32 0x7F800000#32 = (⊤ : EReal) := by
  simp [Ideal.ofBits, Ideal.ieee]

/-- One `all(|x| < +∞)` read back: if the conjunction over all entries of the comparison of `|x|` with the
    broadcast `+∞` is 1, then every entry of `x` is a real number. -/
theorem real_of_all_abs_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf x)
          (broadcastInDim s ![] hb (constant (F := Ideal) Cert.Pre_finite_inputs.S_ .f32 0x7F800000#32)))
        init hr hu j = 1#1)
    (i : s.Idx) : ∃ v : ℝ, x i = (v : EReal) := by
  -- the rank-zero shape has a single index, so the reduction runs over every entry
  haveI : Subsingleton Cert.Pre_finite_inputs.S_.Idx := ⟨fun a b => funext fun d => d.elim0⟩
  have h1 := Host.reduce_andi_all _ init hr hu j e i
  have h2 : Ideal.cmp .olt (max (x i) (-(x i))) (Ideal.ofBits .f32 0x7F800000#32) = 1#1 := h1
  rw [inf_word_eq_top] at h2
  refine real_of_abs_lt_top (x i) ?_
  by_contra hn
  simp [Ideal.cmp, hn] at h2

variable (m : (ℓ : Loc nD τ sig) → Buf (Elt Ideal) ℓ)

/-- The precondition read back: it is the conjunction of six `all(|·| < +∞)`, one per argument array, nested to
    the left; the first three say that every entry of the batch, of `γ` and of `β` is a real number. -/
theorem pre_entries (h : Cert.Pre_KernelIdeal m) (c : Dev nD) :
    (∀ j, ∃ v : ℝ, m ((c.tc : Thread nD τ).loc main_arg0) j = (v : EReal))
    ∧ (∀ j, ∃ v : ℝ, m ((c.tc : Thread nD τ).loc main_arg1) j = (v : EReal))
    ∧ (∀ j, ∃ v : ℝ, m ((c.tc : Thread nD τ).loc main_arg2) j = (v : EReal)) := by
  have h0 := congrFun (h c) ValueIdx.ix0
  dsimp only [Cert.Pre_finite_inputs.fn, Cert.Pre_finite_inputs.fn_part1] at h0
  obtain ⟨h4, -⟩ := IntOp.andi_eq_one.1 h0
  obtain ⟨h3, -⟩ := IntOp.andi_eq_one.1 h4
  obtain ⟨h2, -⟩ := IntOp.andi_eq_one.1 h3
  obtain ⟨h1, hβ⟩ := IntOp.andi_eq_one.1 h2
  obtain ⟨hx, hγ⟩ := IntOp.andi_eq_one.1 h1
  exact ⟨fun j => real_of_all_abs_lt_inf _ _ _ _ _ _ hx j,
    fun j => real_of_all_abs_lt_inf _ _ _ _ _ _ hγ j,
    fun j => real_of_all_abs_lt_inf _ _ _ _ _ _ hβ j⟩

/-- Under the precondition every entry of the batch is a real number. -/
theorem finite_x (h : Cert.Pre_KernelIdeal m) (c : Dev nD) (r : Fin 4096) (i : Fin 1024) :
    ∃ v : ℝ, X m c r i = (v : EReal) := (pre_entries m h c).1 (ix2 r i)

/-- Under the precondition every entry of `γ` is a real number. -/
theorem finite_gamma (h : Cert.Pre_KernelIdeal m) (c : Dev nD) (i : Fin 1024) : ∃ v : ℝ, Γ m c i = (v : EReal) :=
  (pre_entries m h c).2.1 (ix1 i)

/-- Under the precondition every entry of `β` is a real number. -/
theorem finite_beta (h : Cert.Pre_KernelIdeal m) (c : Dev nD) (i : Fin 1024) : ∃ v : ℝ, Β m c i = (v : EReal) :=
  (pre_entries m h c).2.2 (ix1 i)

end Cert.KernelIdeal.RbfValue

end
-- ==== Proof.lean ====
/-
  Two programs compute a radial-basis layer on a batch-normalised input: the batch is normalised feature by
  feature with its own mean and biased variance, every normalised row is compared with 2048 centres through
  ‖row‖² + ‖centre‖² − 2⟨row, centre⟩, the response is exp(−d²), and the responses are multiplied into 1024
  outputs with a bias.

  The kernel program does it in two kernel regions with host arithmetic between them: the first region sums the
  batch and its squares over eight row blocks; the host turns those sums into one scale and one shift per feature
  (variance as mean of squares minus squared mean); the second region applies them to sixteen row blocks and
  computes the responses and the outputs block by block.  The reference does it in one host program (variance
  as mean of squared deviations; centre, rescale, scale, shift).

  The frames of the two kernel programs are the generated ones; the reference's is its generated run.  For the
  value: the kernel's result array is read off the run region by region (Stats, Entry, Main over the launch of
  Launch), the reference's off its generated run stage by stage (RefValue); both are `out` of normalised rows,
  and on finite inputs the two normalisations are one function (Norm; finiteness from the precondition, Finite).
  The idealisation rewrote nothing, so `preserves` has nothing to show.
-/
import proofs.«163010_j58385785421876_1_alg».proof.Defs
import proofs.«163010_j58385785421876_1_alg».proof.Proof.Gen.Kernel
import proofs.«163010_j58385785421876_1_alg».proof.Proof.Gen.Kernel.Skeleton
import proofs.«163010_j58385785421876_1_alg».proof.Proof.Gen.Kernel.Launch
import proofs.«163010_j58385785421876_1_alg».proof.Proof.Gen.Kernel.Points
import proofs.«163010_j58385785421876_1_alg».proof.Proof.Gen.Kernel.Frame
import proofs.«163010_j58385785421876_1_alg».proof.Proof.Gen.KernelIdeal
import proofs.«163010_j58385785421876_1_alg».proof.Proof.Gen.KernelIdeal.Skeleton
import proofs.«163010_j58385785421876_1_alg».proof.Proof.Gen.KernelIdeal.Launch
import proofs.«163010_j58385785421876_1_alg».proof.Proof.Gen.KernelIdeal.Points
import proofs.«163010_j58385785421876_1_alg».proof.Proof.Gen.KernelIdeal.Frame
import proofs.«163010_j58385785421876_1_alg».proof.Proof.Gen.ReferenceIdeal
import proofs.«163010_j58385785421876_1_alg».proof.Proof.Gen.Pre_finite_inputs
import proofs.«163010_j58385785421876_1_alg».proof.Proof.Gen.ReferenceIdeal.Run
import proofs.«163010_j58385785421876_1_alg».proof.Proof.Gen.ReferenceIdeal.Read
import proofs.«163010_j58385785421876_1_alg».proof.Proof.Spec
import proofs.«163010_j58385785421876_1_alg».proof.Proof.Args
import proofs.«163010_j58385785421876_1_alg».proof.Proof.Stats
import proofs.«163010_j58385785421876_1_alg».proof.Proof.Main
import proofs.«163010_j58385785421876_1_alg».proof.Proof.Entry
import proofs.«163010_j58385785421876_1_alg».proof.Proof.Launch
import proofs.«163010_j58385785421876_1_alg».proof.Proof.RefValue
import proofs.«163010_j58385785421876_1_alg».proof.Proof.Norm
import proofs.«163010_j58385785421876_1_alg».proof.Proof.Finite
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section KernelValue

open Cert.KernelIdeal Cert.KernelIdeal.Gen Cert.KernelIdeal.RbfValue

/-- The kernel program's result array after the run, at row `r` and output `o`: `out` of the rows normalised by the
    fused scale and shift — the second region's value at what the host stretch hands it. -/
theorem kernel_value (m : (ℓ : Loc nD τ sig) → Buf (Elt Ideal) ℓ) (ρ : Dev nD → PrngReg) (c : Dev nD)
    (r : Fin 4096) (o : Fin 1024) :
    W3 m ρ c (Proc.devRef .tc main_v22) (ix2 r o)
      = RbfSpec.out (RbfSpec.normFused (X m c) (Γ m c) (Β m c)) (Cen m c) (Wt m c) (Bias m c) r o :=
  (congrFun (W3_arr m ρ c 7) (ix2 r o)).trans
    (region1_value (V2 m ρ) c (X m c) (RbfSpec.scale (X m c) (Γ m c)) (RbfSpec.shift (X m c) (Γ m c) (Β m c))
      (Cen m c) (Wt m c) (Bias m c) (entry_x m ρ c) (entry_scale m ρ c) (entry_shift m ρ c) (entry_cen m ρ c)
      (entry_censq m ρ c) (entry_wt m ρ c) (entry_bias m ρ c) r o)

end KernelValue

/-- Both programs, run from memories that agree on the arguments, end with the same result array: the kernel
    program's is `out` of the fused normalisation, the reference's `out` of the plain one, and on the finite inputs
    the precondition admits the two normalisations agree. -/
theorem algebraic : Cert.algebraic_KernelIdeal_ReferenceIdeal := by
  intro m ρ m' ρ' hpre hagree
  refine ⟨fun c => Cert.KernelIdeal.Gen.W3 m ρ c (Proc.devRef .tc Cert.KernelIdeal.main_v22),
    Cert.KernelIdeal.RbfValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1,
    (hagree c).2.2.2.2.1, (hagree c).2.2.2.2.2]
  funext j
  obtain ⟨r, o, rfl⟩ : ∃ (r : Fin 4096) (o : Fin 1024), j = ix2 r o := ⟨j 0, j 1, eq_ix2 j⟩
  rw [Cert.ReferenceIdeal.RbfValue.ref_value]
  refine Eq.trans ?_ (kernel_value m ρ c r o).symm
  rw [RbfSpec.normFused_eq_normPlain _ _ _ (Cert.KernelIdeal.RbfValue.finite_x m hpre c)
    (Cert.KernelIdeal.RbfValue.finite_gamma m hpre c) (Cert.KernelIdeal.RbfValue.finite_beta m hpre c)]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
